-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S12000x32 : Shape := ⟨2, ![12000, 32]⟩
abbrev S12000x12000 : Shape := ⟨2, ![12000, 12000]⟩
abbrev S12000x50x1 : Shape := ⟨3, ![12000, 50, 1]⟩
abbrev S33x32 : Shape := ⟨2, ![33, 32]⟩
abbrev S32 : Shape := ⟨1, ![32]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S12000x32 : S_.BroadcastsInDim S12000x32 (![] : Fin 0 → Fin S12000x32.rank)
  reducesTo_S12000x32_S_d0_1 : S12000x32.ReducesTo [0, 1] S_
  bcast_S_S12000x12000 : S_.BroadcastsInDim S12000x12000 (![] : Fin 0 → Fin S12000x12000.rank)
  reducesTo_S12000x12000_S_d0_1 : S12000x12000.ReducesTo [0, 1] S_
  bcast_S_S12000x50x1 : S_.BroadcastsInDim S12000x50x1 (![] : Fin 0 → Fin S12000x50x1.rank)
  reducesTo_S12000x50x1_S_d0_1_2 : S12000x50x1.ReducesTo [0, 1, 2] S_
  bcast_S_S33x32 : S_.BroadcastsInDim S33x32 (![] : Fin 0 → Fin S33x32.rank)
  reducesTo_S33x32_S_d0_1 : S33x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S33x32 .f32) (main_arg5 : FVec F S32 .f32) (main_v13 : IVec S_ 1) (main_v16 : IVec S12000x50x1 1) : IVec S_ 1 :=
  let main_c_5 : IVec S_ 1 := constantI S_ 1 1#1
  let main_v17 : IVec S_ 1 := (fun x v => Host.reduce IntOp.andi x v reducesTo_S12000x50x1_S_d0_1_2 h_S_) main_v16 main_c_5
  let main_v18 : IVec S_ 1 := andi main_v13 main_v17
  let main_v19 : FVec F S33x32 .f32 := Host.absf main_arg4
  let main_cst_6 : FVec F S_ .f32 := constant S_ .f32 0x7F800000#32
  let main_v20 : FVec F S33x32 .f32 := broadcastInDim S33x32 ![] bcast_S_S33x32 main_cst_6
  let main_v21 : IVec S33x32 1 := cmpf .olt main_v19 main_v20
  let main_c_7 : IVec S_ 1 := constantI S_ 1 1#1
  let main_v22 : IVec S_ 1 := (fun x v => Host.reduce IntOp.andi x v reducesTo_S33x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S1 .f32) (main_arg1 : FVec F S12000x32 .f32) (main_arg2 : FVec F S12000x12000 .f32) (main_arg3 : FVec F S12000x50x1 .f32) (main_arg4 : FVec F S33x32 .f32) (main_arg5 : FVec F S32 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S12000x32 .f32 := Host.absf main_arg1
  let main_cst_0 : FVec F S_ .f32 := constant S_ .f32 0x7F800000#32
  let main_v5 : FVec F S12000x32 .f32 := broadcastInDim S12000x32 ![] bcast_S_S12000x32 main_cst_0
  let main_v6 : IVec S12000x32 1 := cmpf .olt main_v4 main_v5
  let main_c_1 : IVec S_ 1 := constantI S_ 1 1#1
  let main_v7 : IVec S_ 1 := (fun x v => Host.reduce IntOp.andi x v reducesTo_S12000x32_S_d0_1 h_S_) main_v6 main_c_1
  let main_v8 : IVec S_ 1 := andi main_v3 main_v7
  let main_v9 : FVec F S12000x12000 .f32 := Host.absf main_arg2
  let main_cst_2 : FVec F S_ .f32 := constant S_ .f32 0x7F800000#32
  let main_v10 : FVec F S12000x12000 .f32 := broadcastInDim S12000x12000 ![] bcast_S_S12000x12000 main_cst_2
  let main_v11 : IVec S12000x12000 1 := cmpf .olt main_v9 main_v10
  let main_c_3 : IVec S_ 1 := constantI S_ 1 1#1
  let main_v12 : IVec S_ 1 := (fun x v => Host.reduce IntOp.andi x v reducesTo_S12000x12000_S_d0_1 h_S_) main_v11 main_c_3
  let main_v13 : IVec S_ 1 := andi main_v8 main_v12
  let main_v14 : FVec F S12000x50x1 .f32 := Host.absf main_arg3
  let main_cst_4 : FVec F S_ .f32 := constant S_ .f32 0x7F800000#32
  let main_v15 : FVec F S12000x50x1 .f32 := broadcastInDim S12000x50x1 ![] bcast_S_S12000x50x1 main_cst_4
  let main_v16 : IVec S12000x50x1 1 := cmpf .olt main_v14 main_v15
  fn_part1 (F := F) main_arg4 main_arg5 main_v13 main_v16
-- ==== Kernel.lean ====
abbrev S1 : Shape := ⟨1, ![1]⟩
abbrev S12000x32 : Shape := ⟨2, ![12000, 32]⟩
abbrev S12000x12000 : Shape := ⟨2, ![12000, 12000]⟩
abbrev S12000x50x1 : Shape := ⟨3, ![12000, 50, 1]⟩
abbrev S33x32 : Shape := ⟨2, ![33, 32]⟩
abbrev S32 : Shape := ⟨1, ![32]⟩
abbrev S_ : Shape := ⟨0, ![]⟩
abbrev S12000x1x1 : Shape := ⟨3, ![12000, 1, 1]⟩
abbrev S12000x1 : Shape := ⟨2, ![12000, 1]⟩
abbrev S12000x33 : Shape := ⟨2, ![12000, 33]⟩
abbrev S1x32 : Shape := ⟨2, ![1, 32]⟩
abbrev S320x12000 : Shape := ⟨2, ![320, 12000]⟩
abbrev S320x32 : Shape := ⟨2, ![320, 32]⟩

abbrev nBuf : Space → Nat
  | .hbm => 29
  | .vmem => 6
  | .smem => 0
  | _ => 0

abbrev bufTy : (tb : Table) → Fin (tcTables nBuf tb) → BufTy
  | .hbm, ⟨0, _⟩ => ⟨S1, .f32⟩
  | .hbm, ⟨1, _⟩ => ⟨S12000x32, .f32⟩
  | .hbm, ⟨2, _⟩ => ⟨S12000x12000, .f32⟩
  | .hbm, ⟨3, _⟩ => ⟨S12000x50x1, .f32⟩
  | .hbm, ⟨4, _⟩ => ⟨S33x32, .f32⟩
  | .hbm, ⟨5, _⟩ => ⟨S32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S12000x1x1, .f32⟩
  | .hbm, ⟨24, _⟩ => ⟨S12000x1, .f32⟩
  | .hbm, ⟨25, _⟩ => ⟨S12000x33, .f32⟩
  | .hbm, ⟨26, _⟩ => ⟨S12000x32, .f32⟩
  | .hbm, ⟨27, _⟩ => ⟨S1x32, .f32⟩
  | .hbm, ⟨28, _⟩ => ⟨S12000x32, .f32⟩
  | .local _ .vmem, ⟨0, _⟩ => ⟨S320x12000, .f32⟩
  | .local _ .vmem, ⟨1, _⟩ => ⟨S320x12000, .f32⟩
  | .local _ .vmem, ⟨2, _⟩ => ⟨S12000x32, .f32⟩
  | .local _ .vmem, ⟨3, _⟩ => ⟨S1x32, .f32⟩
  | .local _ .vmem, ⟨4, _⟩ => ⟨S320x32, .f32⟩
  | .local _ .vmem, ⟨5, _⟩ => ⟨S320x32, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v3 : Ref sig .tc := ⟨.hbm, 15, rfl⟩
abbrev main_call1_c : Ref sig .tc := ⟨.hbm, 16, rfl⟩
abbrev main_call1_v0 : Ref sig .tc := ⟨.hbm, 17, rfl⟩
abbrev main_call1_c_0 : Ref sig .tc := ⟨.hbm, 18, rfl⟩
abbrev main_call1_v1 : Ref sig .tc := ⟨.hbm, 19, rfl⟩
abbrev main_call1_v2 : Ref sig .tc := ⟨.hbm, 20, rfl⟩
abbrev main_call1_c_1 : Ref sig .tc := ⟨.hbm, 21, rfl⟩
abbrev main_call1_c_2 : Ref sig .tc := ⟨.hbm, 22, rfl⟩
abbrev main_call1_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S_ : S1.ShapeCasts S_
  sliceFits_S12000x50x1_S12000x1x1 : S12000x50x1.Slices (fun _ => 0) S12000x1x1
  h_S_ : 0 < S_.numel
  shapeCasts_S12000x1x1_S12000x1 : S12000x1x1.ShapeCasts S12000x1
  concatenates_S12000x32_S12000x1_S12000x33_d1 : Shape.Concatenates [S12000x32, S12000x1] S12000x33 1
  shapeCasts_S32_S1x32 : S32.ShapeCasts S1x32
  inb_S320x12000_S320x12000_0_0 : ∀ a, (![0, 0] : Fin 2 → Nat) a + S320x12000.size a ≤ S320x12000.size a
  h_S320x12000 : 0 < S320x12000.numel
  bitsLt_bf16_f32 : FTy.bits .bf16 < FTy.bits .f32
  inb_S12000x32_S12000x32_0_0 : ∀ a, (![0, 0] : Fin 2 → Nat) a + S12000x32.size a ≤ S12000x32.size a
  h_S12000x32 : 0 < S12000x32.numel
  shapeCasts_S12000x32_S12000x32 : S12000x32.ShapeCasts S12000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S320x32 : S1x32.Broadcasts S320x32
  inb_S320x32_S320x32_0_0 : ∀ a, (![0, 0] : Fin 2 → Nat) a + S320x32.size a ≤ S320x32.size a
  h_S320x32 : 0 < S320x32.numel
  dot_S12000x33_S33x32_S12000x32_1_0_0_1_n_n_wf : DotDims.WF S12000x33 S33x32 S12000x32 [1] [0] [0] [1] [] []
  dot_S320x12000_S12000x32_S320x32_1_0_0_1_n_n_wf : DotDims.WF S320x12000 S12000x32 S320x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S320x12000.size a < S12000x12000.size a
  hwx0_0 : ∀ i : grid0.Coords, EltTy.bits .f32 = 32 ∨ (Rect.unit (s := S12000x12000) (fun a => cc0_transform_0 i a * S320x12000.size a) (fun a => (Pipeline.Clip.of (cc0_transform_0 i a) (S320x12000.size a) (S12000x12000.size a)).extent (S320x12000.size a)) fun a => Pipeline.Clip.inb (Pipeline.Clip.ok_of (hstart0_0 i a))).WholeWords (EltTy.packing .f32)
  hwxs0_0 : ∀ i : grid0.Coords, EltTy.bits .f32 = 32 ∨ (Rect.unit (s := S320x12000) (fun _ => 0) (fun a => (Pipeline.Clip.of (cc0_transform_0 i a) (S320x12000.size a) (S12000x12000.size a)).extent (S320x12000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x32.size a ≤ S12000x32.size a
  hwx0_1 : ∀ i : grid0.Coords, EltTy.bits .f32 = 32 ∨ (Rect.block (s := S12000x32) S12000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S320x32.size a < S12000x32.size a
  hwx0_3 : ∀ i : grid0.Coords, EltTy.bits .f32 = 32 ∨ (Rect.unit (s := S12000x32) (fun a => cc0_transform_3 i a * S320x32.size a) (fun a => (Pipeline.Clip.of (cc0_transform_3 i a) (S320x32.size a) (S12000x32.size a)).extent (S320x32.size a)) fun a => Pipeline.Clip.inb (Pipeline.Clip.ok_of (hstart0_3 i a))).WholeWords (EltTy.packing .f32)
  hwxs0_3 : ∀ i : grid0.Coords, EltTy.bits .f32 = 32 ∨ (Rect.unit (s := S320x32) (fun _ => 0) (fun a => (Pipeline.Clip.of (cc0_transform_3 i a) (S320x32.size a) (S12000x32.size a)).extent (S320x32.size a)) fun a => (Nat.zero_add _).trans_le (Pipeline.Clip.extent_le (Pipeline.Clip.ok_of (hstart0_3 i a)))).WholeWords (EltTy.packing .f32)

variable [Facts₀]

def dot_S12000x33_S33x32_S12000x32_1_0_0_1_n_n : DotDims S12000x33 S33x32 S12000x32 where
  lhsContracting := [1]
  rhsContracting := [0]
  lhsNonContracting := [0]
  rhsNonContracting := [1]
  lhsBatch := []
  rhsBatch := []
  wf := dot_S12000x33_S33x32_S12000x32_1_0_0_1_n_n_wf
def dot_S320x12000_S12000x32_S320x32_1_0_0_1_n_n : DotDims S320x12000 S12000x32 S320x32 where
  lhsContracting := [1]
  rhsContracting := [0]
  lhsNonContracting := [0]
  rhsNonContracting := [1]
  lhsBatch := []
  rhsBatch := []
  wf := dot_S320x12000_S12000x32_S320x32_1_0_0_1_n_n_wf

abbrev win0_0 : Pipeline.Window sig grid0 :=
  Pipeline.Window.ofSpecClip (Memref.whole main_arg2) S320x12000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v6) S12000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v8) S320x32.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S12000x32 : Shape := ⟨2, ![12000, 32]⟩
abbrev S12000x12000 : Shape := ⟨2, ![12000, 12000]⟩
abbrev S12000x50x1 : Shape := ⟨3, ![12000, 50, 1]⟩
abbrev S33x32 : Shape := ⟨2, ![33, 32]⟩
abbrev S32 : Shape := ⟨1, ![32]⟩
abbrev S_ : Shape := ⟨0, ![]⟩
abbrev S12000x1x1 : Shape := ⟨3, ![12000, 1, 1]⟩
abbrev S12000x1 : Shape := ⟨2, ![12000, 1]⟩
abbrev S12000x33 : Shape := ⟨2, ![12000, 33]⟩
abbrev S1x32 : Shape := ⟨2, ![1, 32]⟩

abbrev nBuf : Space → Nat
  | .hbm => 34
  | .vmem => 0
  | .smem => 0
  | _ => 0

abbrev bufTy : (tb : Table) → Fin (tcTables nBuf tb) → BufTy
  | .hbm, ⟨0, _⟩ => ⟨S1, .f32⟩
  | .hbm, ⟨1, _⟩ => ⟨S12000x32, .f32⟩
  | .hbm, ⟨2, _⟩ => ⟨S12000x12000, .f32⟩
  | .hbm, ⟨3, _⟩ => ⟨S12000x50x1, .f32⟩
  | .hbm, ⟨4, _⟩ => ⟨S33x32, .f32⟩
  | .hbm, ⟨5, _⟩ => ⟨S32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S12000x1x1, .f32⟩
  | .hbm, ⟨24, _⟩ => ⟨S12000x1, .f32⟩
  | .hbm, ⟨25, _⟩ => ⟨S12000x33, .f32⟩
  | .hbm, ⟨26, _⟩ => ⟨S12000x32, .f32⟩
  | .hbm, ⟨27, _⟩ => ⟨S12000x32, .f32⟩
  | .hbm, ⟨28, _⟩ => ⟨S1x32, .f32⟩
  | .hbm, ⟨29, _⟩ => ⟨S12000x32, .f32⟩
  | .hbm, ⟨30, _⟩ => ⟨S12000x32, .f32⟩
  | .hbm, ⟨31, _⟩ => ⟨S_, .f32⟩
  | .hbm, ⟨32, _⟩ => ⟨S12000x32, .f32⟩
  | .hbm, ⟨33, _⟩ => ⟨S12000x32, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v3 : Ref sig .tc := ⟨.hbm, 15, rfl⟩
abbrev main_call1_c : Ref sig .tc := ⟨.hbm, 16, rfl⟩
abbrev main_call1_v0 : Ref sig .tc := ⟨.hbm, 17, rfl⟩
abbrev main_call1_c_0 : Ref sig .tc := ⟨.hbm, 18, rfl⟩
abbrev main_call1_v1 : Ref sig .tc := ⟨.hbm, 19, rfl⟩
abbrev main_call1_v2 : Ref sig .tc := ⟨.hbm, 20, rfl⟩
abbrev main_call1_c_1 : Ref sig .tc := ⟨.hbm, 21, rfl⟩
abbrev main_call1_c_2 : Ref sig .tc := ⟨.hbm, 22, rfl⟩
abbrev main_call1_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call2_cst : Ref sig .tc := ⟨.hbm, 31, rfl⟩
abbrev main_call2_v0 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  shapeCasts_S1_S_ : S1.ShapeCasts S_
  sliceFits_S12000x50x1_S12000x1x1 : S12000x50x1.Slices (fun _ => 0) S12000x1x1
  h_S_ : 0 < S_.numel
  shapeCasts_S12000x1x1_S12000x1 : S12000x1x1.ShapeCasts S12000x1
  concatenates_S12000x32_S12000x1_S12000x33_d1 : Shape.Concatenates [S12000x32, S12000x1] S12000x33 1
  bcast_S32_S1x32_1 : S32.BroadcastsInDim S1x32 (![1] : Fin 1 → Fin S1x32.rank)
  bcast_S1x32_S12000x32_0_1 : S1x32.BroadcastsInDim S12000x32 (![0, 1] : Fin 2 → Fin S12000x32.rank)
  bcast_S_S12000x32 : S_.BroadcastsInDim S12000x32 (![] : Fin 0 → Fin S12000x32.rank)
  dot_S12000x33_S33x32_S12000x32_1_0_0_1_n_n_wf : DotDims.WF S12000x33 S33x32 S12000x32 [1] [0] [0] [1] [] []
  dot_S12000x12000_S12000x32_S12000x32_1_0_0_1_n_n_wf : DotDims.WF S12000x12000 S12000x32 S12000x32 [1] [0] [0] [1] [] []

variable [Facts₀]

def dot_S12000x33_S33x32_S12000x32_1_0_0_1_n_n : DotDims S12000x33 S33x32 S12000x32 where
  lhsContracting := [1]
  rhsContracting := [0]
  lhsNonContracting := [0]
  rhsNonContracting := [1]
  lhsBatch := []
  rhsBatch := []
  wf := dot_S12000x33_S33x32_S12000x32_1_0_0_1_n_n_wf
def dot_S12000x12000_S12000x32_S12000x32_1_0_0_1_n_n : DotDims S12000x12000 S12000x32 S12000x32 where
  lhsContracting := [1]
  rhsContracting := [0]
  lhsNonContracting := [0]
  rhsNonContracting := [1]
  lhsBatch := []
  rhsBatch := []
  wf := dot_S12000x12000_S12000x32_S12000x32_1_0_0_1_n_n_wf

class Facts : Prop extends Facts₀ where

variable [Facts]
-- ==== Proof.K.Host.lean ====
/-
  @main of the kernel's program up to its one region, and the frame claim read off a frame run.
  Before the region @main computes, on the host, the treatment column selected by `t`, appends it to `z`, multiplies by
  `W` (the layer's `support`, `main_v6`) and reshapes the bias to one row (`main_v7`). `V m c b` is what buffer `b`
  of core `c` holds when the region is entered: the fold of those twenty-two operations over the launch memory.
  None of them writes an argument, so the region finds every argument as launched (`V_main_argK`).
-/
import proofs.«171706_j781684048056_1_alg».proof.Proof.Gen.Kernel.Launch
import proofs.«171706_j781684048056_1_alg».proof.Proof.Gen.Kernel.Points
import Idealize.ShloMosaic.Lib.Pipeline.FrameBody
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

variable (m : (ℓ : Loc nD τ sig) → Buf (Elt F) ℓ) (ρ : Dev nD → PrngReg)

/-! ## @main up to the region -/

/-- Core `c`'s TensorCore buffers when the region is entered: after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main is the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A reference none of the twenty-two operations writes holds at the region's entry what it held at launch. -/
theorem V_of_not_written (c : Dev nD) (r : Ref sig .tc)
    (hr : r ∉ ([main_v0, main_cst, main_v1, main_v2, main_c, main_c_0, main_call0_v0, main_call0_v1, main_call0_v2, main_v3,
      main_call1_c, main_call1_v0, main_call1_c_0, main_call1_v1, main_call1_v2, main_call1_c_1, main_call1_c_2, main_call1_v3,
      main_v4, main_v5, main_v6, main_v7] : List (Ref sig .tc))) :
    V m c r = m ((c : Thread nD τ).loc r) :=
  StableHlo.after_of_writes_sub (τ := τ) _ _ (by
    simp only [hostOps0, hostOps0_1, hostOps0_2, hostOps0_3, List.flatten_cons, List.flatten_nil, List.append_nil, List.cons_append,
      List.nil_append, List.Forall]
    repeat' apply And.intro
    all_goals
      intro b hb
      simp only [List.map_cons, List.map_nil, List.toFinset_cons, List.toFinset_nil, Finset.mem_insert]
      simp only [StableHlo.nullary_writes, StableHlo.unary_writes, StableHlo.binary_writes, StableHlo.ternary_writes,
        StableHlo.reshape_writes, StableHlo.unaryIndexed_writes, Finset.mem_singleton] at hb
      subst hb
      simp) hr

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)

end Cert.Kernel.Hand

end
-- ==== Proof.K.Frame.lean ====
/-
  The word-level program's frame: it runs to the end, faults nowhere, and leaves its six arguments unchanged.
  Nothing is claimed here about what the result array holds, so the proof data is relational and says nothing of the
  two clipped windows (`adj`'s block, refetched at every point, and the result's block): whatever the body finds there
  and whatever it leaves is admitted. Of `support` and the bias row, fetched at the first point only and read again at
  every later one, it says that the body leaves them as it found them.
-/
import proofs.«171706_j781684048056_1_alg».proof.Proof.K.Host
import proofs.«171706_j781684048056_1_alg».proof.Proof.Gen.Kernel.Skeleton
import Idealize.ShloMosaic.Lib.Pipeline.Kit
import Idealize.ShloMosaic.Lib.Pipeline.Frame
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the pipeline on device `c`'s TensorCore: the arrays as the region finds them; the two
    clipped windows unconstrained; `support`'s and the bias row's buffers left as found. -/
def rdat (c : Dev nD) : RDat τ (Elt F) Unit ℕ (UR sig nD τ) ℕ cfg0 c where
  A w := V m c (Pipeline.arrRef spec0 w)
  after w _ Y X := match w with
    | ⟨0, _⟩ => True
    | ⟨1, _⟩ => X = Y
    | ⟨2, _⟩ => X = Y
    | ⟨3, _⟩ => True
  Φ _ := Pipeline.ΦA spec0 c
  q _ := fullShare
  owed _ := 0

theorem rdat_A (c : Dev nD) (w : Fin cfg0.W) : (rdat m c).A w = V m c (Pipeline.arrRef spec0 w) := rfl

/-! ## The body on whole buffers

Every access of the body is through the rectangle of a buffer's own sizes at offsets zero: the whole buffer. -/

section WholeAccess

variable {sig' : RefSig} {κ' : Kind} {sp' : Space} {S : Shape} {e : EltTy} {Val : EltTy → Type}

/-- A load through the rectangle of a view's own sizes at offsets zero reads what the view reads. -/
theorem readAt_unit_zero_view (v : View sig' κ' sp' S e) (f : v.ty.Contents Val) {off : Fin S.rank → Nat} (h : off = fun _ => 0)
    (inb : ∀ a, off a + S.size a ≤ S.size a) : v.readAt Val (Rect.unit off S.size inb).toLoadRect f = v.read Val f :=
  (View.readAt_eq_ld v f _).trans (View.ld_unit_zero h inb _)

/-- One unmasked store through that rectangle leaves the view reading the payload, whatever the buffer held: every index
    of the shape is an index of the rectangle, and under the last store a view reads its payload. -/
theorem read_writes_unit_zero_view (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  funext y
  have hy := View.read_writes_cons_emb v f (Rect.whole S) w [] y
  rw [Rect.emb_whole_apply] at hy
  exact hy

end WholeAccess

/-- The kernel body on ANY four memrefs of its parameters' types, at any contents `X0` (`adj`'s block), `X1` (`support`),
    `X2` (the bias row) and `X3` (the result's block): three whole loads, the dead whole load of the result's memref, and
    one whole store of `k0_pay1 X0 X1 X2` into it. The three inputs' memrefs are handed back at the contents they came
    with, the result's at the stored value; what it held before (`X3`) is read by nothing. -/
theorem sound_kernel (c : Dev nD) (E : Set ℕ) (i : grid0.Coords)
    (a0 : Memref sig .tc .vmem S320x12000 .f32) (h0 : a0.IsWhole) (a1 : Memref sig .tc .vmem S12000x32 .f32) (h1 : a1.IsWhole)
    (a2 : Memref sig .tc .vmem S1x32 .f32) (h2 : a2.IsWhole) (a3 : Memref sig .tc .vmem S320x32 .f32) (h3 : a3.IsWhole)
    (X0 : Vec F S320x12000 .f32) (X1 : Vec F S12000x32 .f32) (X2 : Vec F S1x32 .f32) (X3 : Vec F S320x32 .f32) (K : PUnit → sProp 𝕄) :
    iprop(owns (c : Thread nD τ) a0 fullShare X0 ∗ owns (c : Thread nD τ) a1 fullShare X1 ∗ owns (c : Thread nD τ) a2 fullShare X2
          ∗ owns (c : Thread nD τ) a3 fullShare X3
          ∗ (iprop(owns (c : Thread nD τ) a0 fullShare X0 ∗ owns (c : Thread nD τ) a1 fullShare X1 ∗ owns (c : Thread nD τ) a2 fullShare X2
                  ∗ owns (c : Thread nD τ) a3 fullShare (k0_pay1 X0 X1 X2)) -∗ K ⟨⟩))
      ⊢ wp frame (wpE (defs₀ (F := F)) Variants.none c none) E (cc0__gcn_kernel i a0 h0 a1 h1 a2 h2 a3 h3) K := by
  have hz : (![0, 0] : Fin 2 → Nat) = fun _ => 0 := funext fun a => by fin_cases a <;> rfl
  simp only [cc0__gcn_kernel_eq_skeleton]; unfold cc0__gcn_kernel_skel
  -- each memref owned at contents `X` is its buffer's elements under the view at some `f` that the view reads as `X`
  unfold owns
  iintro ⟨⟨%f0, %hf0, H0⟩, ⟨%f1, %hf1, H1⟩, ⟨%f2, %hf2, H2⟩, ⟨%f3, %hf3, H3⟩, Hk⟩
  subst hf0 hf1 hf2
  sl_exec
  sl_step
  iapply Hk
  -- no input buffer was written: each still reads what it read
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the result's buffer after its one whole store reads the payload, and the payload's three arguments are the whole
  -- loads, which read the inputs' contents
  refine (read_writes_unit_zero_view a3.view f3 hz inb_S320x32_S320x32_0_0 _).trans ?_
  rw [readAt_unit_zero_view a0.view f0 hz, readAt_unit_zero_view a1.view f1 hz, readAt_unit_zero_view a2.view f2 hz]

/-- The body at any point, whatever the four staging buffers hold: it loads the three input buffers and the result's,
    and stores one value into the result's; the inputs' buffers are left as found. -/
theorem body_obligation (c : Dev nD) : (rdat (F := F) m c).BodyObligation (defs₀ (F := F)) Variants.none () Set.univ := fun t Y _ => by
  rw [bigSep_W0, bigSep_W0]
  -- the four windows' relations spelled out (the `match` on the window reduces); the invariant and what the core owes
  -- are the same before and after every point, and the body at point `t` is the kernel function on the point's four
  -- current staging memrefs
  show iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) fun _ =>
          iprop((rdat m c).Φ t.castSucc ∗ (rdat m c).owesAt () t.castSucc
            ∗ (∃ X, ⌜True⌝ ∗ owns (c : Thread nD τ) (st0_0 t) fullShare X)
            ∗ (∃ X, ⌜X = Y 1⌝ ∗ owns (c : Thread nD τ) (st0_1 t) fullShare X)
            ∗ (∃ X, ⌜X = Y 2⌝ ∗ owns (c : Thread nD τ) (st0_2 t) fullShare X)
            ∗ (∃ X, ⌜True⌝ ∗ owns (c : Thread nD τ) (st0_3 t) fullShare X))
  iintro ⟨HΦ, Ho, H0, H1, H2, H3⟩
  iapply (sound_kernel (F := F) c Set.univ (grid0.coords t) _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  -- the invariant and the core's dues pass through unread
  isplitl [HΦ]; · iexact HΦ
  isplitl [Ho]; · iexact Ho
  -- `adj`'s buffer: anything may be left; it is left as found
  isplitl [H0]
  · iexists (Y 0); isplitr; · ipureintro; trivial
    iexact H0
  -- `support`'s buffer and the bias row's: left as found
  isplitl [H1]
  · iexists (Y 1); isplitr; · ipureintro; rfl
    iexact H1
  isplitl [H2]
  · iexists (Y 2); isplitr; · ipureintro; rfl
    iexact H2
  -- the result's buffer: anything may be left; it is left at the stored value
  · iexists (k0_pay1 (Y 0) (Y 1) (Y 2)); isplitr; · ipureintro; trivial
    iexact H3

set_option backward.isDefEq.respectTransparency.types false in
/-- The frame run: every array of the pipeline at some contents the write-backs may leave, every other unscoped buffer
    as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := rdat_A m) (hΦ := fun _ _ => rfl)

/-- The frame: `adj` is an input window's array (never written), the other five arguments are staged by no window and
    written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     (Pipeline.RDat.FramePost.arr_in h c 0 rfl).trans ((rdat_A m c 0).trans (V_main_arg2 m c)),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩)
    (run_main m ρ)

end Cert.Kernel.Hand

end
-- ==== Proof.KI.Host.lean ====
/-
  @main of the kernel's program up to its one region, and the frame claim read off a frame run.
  Before the region @main computes, on the host, the treatment column selected by `t`, appends it to `z`, multiplies by
  `W` (the layer's `support`, `main_v6`) and reshapes the bias to one row (`main_v7`). `V m c b` is what buffer `b`
  of core `c` holds when the region is entered: the fold of those twenty-two operations over the launch memory.
  None of them writes an argument, so the region finds every argument as launched (`V_main_argK`).
-/
import proofs.«171706_j781684048056_1_alg».proof.Proof.Gen.KernelIdeal.Launch
import proofs.«171706_j781684048056_1_alg».proof.Proof.Gen.KernelIdeal.Points
import Idealize.ShloMosaic.Lib.Pipeline.FrameBody
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

variable (m : (ℓ : Loc nD τ sig) → Buf (Elt F) ℓ) (ρ : Dev nD → PrngReg)

/-! ## @main up to the region -/

/-- Core `c`'s TensorCore buffers when the region is entered: after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main is the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A reference none of the twenty-two operations writes holds at the region's entry what it held at launch. -/
theorem V_of_not_written (c : Dev nD) (r : Ref sig .tc)
    (hr : r ∉ ([main_v0, main_cst, main_v1, main_v2, main_c, main_c_0, main_call0_v0, main_call0_v1, main_call0_v2, main_v3,
      main_call1_c, main_call1_v0, main_call1_c_0, main_call1_v1, main_call1_v2, main_call1_c_1, main_call1_c_2, main_call1_v3,
      main_v4, main_v5, main_v6, main_v7] : List (Ref sig .tc))) :
    V m c r = m ((c : Thread nD τ).loc r) :=
  StableHlo.after_of_writes_sub (τ := τ) _ _ (by
    simp only [hostOps0, hostOps0_1, hostOps0_2, hostOps0_3, List.flatten_cons, List.flatten_nil, List.append_nil, List.cons_append,
      List.nil_append, List.Forall]
    repeat' apply And.intro
    all_goals
      intro b hb
      simp only [List.map_cons, List.map_nil, List.toFinset_cons, List.toFinset_nil, Finset.mem_insert]
      simp only [StableHlo.nullary_writes, StableHlo.unary_writes, StableHlo.binary_writes, StableHlo.ternary_writes,
        StableHlo.reshape_writes, StableHlo.unaryIndexed_writes, Finset.mem_singleton] at hb
      subst hb
      simp) hr

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)

end Cert.KernelIdeal.Hand

end
-- ==== Proof.KI.Data.lean ====
/-
  The proof data of the one pipeline: what each window's staging buffer holds after the body at grid point `t`.
  Point `t` handles rows `320·t … 320·t + 319` of `adj`; the last point's block overhangs the array by 160 rows, and what
  the staging buffer holds there is not named by anything (`ablkFull` fills those rows with the zero word; no statement
  depends on the choice, every obligation about a clipped window being stated on the rows inside the array only).
  `support` and the bias row are staged whole at every point. The result's buffer ends at the body's one stored value,
  `k0_pay1` of the three loaded blocks.
-/
import proofs.«171706_j781684048056_1_alg».proof.Proof.KI.Host
import proofs.«171706_j781684048056_1_alg».proof.Proof.Gen.KernelIdeal.Skeleton

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window cellOf)

variable {F : FTy → Type} [FloatOps F]

variable (m : (ℓ : Loc nD τ sig) → Buf (Elt F) ℓ)

/-- The arrays the region reads, at their literal types. -/
abbrev adjArr (c : Dev nD) : Vec F S12000x12000 .f32 := V m c main_arg2
abbrev supArr (c : Dev nD) : Vec F S12000x32 .f32 := V m c main_v6
abbrev biasRow (c : Dev nD) : Vec F S1x32 .f32 := V m c main_v7

/-- `adj`'s block at point `t` as the fetch reads it: its rows inside the array (320 of them, 160 at the last point). -/
def ablk (c : Dev nD) (t : Fin cfg0.N) : (win0_0.xblock (grid0.coords t)).Idx → Elt F .f32 :=
  (win0_0.blk t).view.read (Elt F) (adjArr m c)

/-- That block filled out to the staging buffer's 320 rows with the zero word. -/
def ablkFull (c : Dev nD) (t : Fin cfg0.N) : Vec F S320x12000 .f32 :=
  win0_0.fill (grid0.coords t) (fun _ => Scalar.ofBits .f32 0#32) (ablk m c t)

/-- What the body stores into the result's staging buffer at point `t`. -/
def outBlk (c : Dev nD) (t : Fin cfg0.N) : Vec F S320x32 .f32 :=
  k0_pay1 (ablkFull m c t) (supArr m c) (biasRow m c)

/-- The proof data of the pipeline on device `c`'s TensorCore. -/
def dats (_ : Fin 1) (c : Dev nD) : Dat τ (Elt F) Unit ℕ (UR sig nD τ) ℕ cfg0 c where
  A w := V m c (Pipeline.arrRef spec0 w)
  after w t := match w with
    | ⟨0, _⟩ => ablkFull m c t
    | ⟨1, _⟩ => supArr m c
    | ⟨2, _⟩ => biasRow m c
    | ⟨3, _⟩ => outBlk m c t
  Φ _ := Pipeline.ΦA spec0 c
  q _ := fullShare
  owed _ := 0

theorem dats_A (c : Dev nD) (w : Fin cfg0.W) : (dats m 0 c).A w = V m c (Pipeline.arrRef spec0 w) := rfl
theorem dats_after0 (c : Dev nD) (t : Fin cfg0.N) : (dats m 0 c).after 0 t = ablkFull m c t := rfl
theorem dats_after1 (c : Dev nD) (t : Fin cfg0.N) : (dats m 0 c).after 1 t = supArr m c := rfl
theorem dats_after2 (c : Dev nD) (t : Fin cfg0.N) : (dats m 0 c).after 2 t = biasRow m c := rfl
theorem dats_after3 (c : Dev nD) (t : Fin cfg0.N) : (dats m 0 c).after 3 t = outBlk m c t := rfl

end Cert.KernelIdeal.Hand

end
-- ==== Proof.KI.Body.lean ====
/-
  The kernel body's obligation at a grid point, at the ideal instance.
  At point `t` the body finds `adj`'s staging buffer just fetched: the block's rows inside the array (320 of them, 160 at
  the last point) and, past them, whatever the buffer held; `support`'s and the bias row's buffers holding those arrays
  whole (fetched once, left in place since); the result's buffer at contents nothing names (it is written back at every
  point). It loads the three, stores `relu(block · support + bias)` over the result's buffer, and leaves the inputs as
  found. The obligation states the two clipped windows on the rows inside the array only, so what is owed is: the rows
  of the stored block inside the array do not depend on what lay past the array's end in `adj`'s buffer. They do not:
  entry `(p, q)` of a matrix product contracts row `p` of the left operand, the bias and the clamp act entry by entry,
  and the two clipped windows keep the same rows.
-/
import proofs.«171706_j781684048056_1_alg».proof.Proof.KI.Data
import Idealize.ShloMosaic.Lib.Pipeline.Kit
import Idealize.ShloMosaic.Lib.Pipeline.FrameBody
import Idealize.ShloMosaic.Lib.Pipeline.Value
import Idealize.ShloMosaic.Lib.ValueIdx
import Idealize.ShloMosaic.Lib.Tactic
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ)

/-! ## The body on four whole staging buffers -/

/-- The result's buffer as one rectangle: offsets zero, the buffer's own sizes. -/
abbrev bodyOutRect : Rect S320x32 := Rect.unit (s := S320x32) ![0, 0] S320x32.size inb_S320x32_S320x32_0_0

theorem body_zero_offsets : (![0, 0] : Fin 2 → Nat) = fun _ => 0 := funext fun a => by fin_cases a <;> rfl

/-- A store through it covers the buffer. -/
theorem body_store_covers (w : S320x32.Idx → Elt Ideal .f32) (y : S320x32.Idx) :
    ∃ p ∈ ([⟨bodyOutRect, w⟩] : List (View.Piece (Elt Ideal) S320x32 .f32)), y ∈ p.1.set :=
  ⟨⟨bodyOutRect, w⟩, List.mem_singleton_self _, View.mem_set_unit_zero (S := S320x32) body_zero_offsets inb_S320x32_S320x32_0_0 y⟩

/-- A load through a buffer's whole rectangle (offsets zero, the buffer's own sizes) reads the buffer's contents. -/
theorem body_readAt_whole {S : Shape} {sp : Space} (a : Memref sig .tc sp S .f32) {off : Fin S.rank → Nat} (h : off = fun _ => 0)
    (inb : ∀ x, off x + S.size x ≤ S.size x) (f : a.view.ty.Contents (Elt Ideal)) :
    View.readAt (Elt Ideal) a.view (Rect.unit (s := S) off S.size inb).toLoadRect f = View.read (Elt Ideal) a.view f :=
  (View.readAt_eq_ld a.view f _).trans (View.ld_unit_zero h inb _)

set_option maxHeartbeats 1000000 in
/-- The kernel body on four whole staging buffers holding `X0`, `X1`, `X2` and anything: three whole loads, the
    payload, the dead load of the result's buffer, one whole store. The three inputs' buffers are left as found and
    the result's buffer holds the payload of the three loaded blocks. -/
theorem sound_body (c : Dev nD) (E : Set ℕ) (i : grid0.Coords)
    (a1 : Memref sig .tc .vmem S320x12000 .f32) (h1 : a1.IsWhole)
    (a2 : Memref sig .tc .vmem S12000x32 .f32) (h2 : a2.IsWhole)
    (a3 : Memref sig .tc .vmem S1x32 .f32) (h3 : a3.IsWhole)
    (a4 : Memref sig .tc .vmem S320x32 .f32) (h4 : a4.IsWhole)
    (X0 : Vec Ideal S320x12000 .f32) (X1 : Vec Ideal S12000x32 .f32) (X2 : Vec Ideal S1x32 .f32) (X3 : Vec Ideal S320x32 .f32)
    (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3
        ∗ (iprop(owns (c : Thread nD τ) a1 fullShare X0 ∗ owns (c : Thread nD τ) a2 fullShare X1 ∗ owns (c : Thread nD τ) a3 fullShare X2
              ∗ owns (c : Thread nD τ) a4 fullShare (k0_pay1 X0 X1 X2)) -∗ K ⟨⟩))
      ⊢ wp frame (wpE (defs₀ (F := Ideal)) Variants.none c none) E (cc0__gcn_kernel i a1 h1 a2 h2 a3 h3 a4 h4) K := by
  -- every access is at offsets zero and the buffer's own sizes: a load reads the contents, the one unmasked store
  -- covers the buffer and leaves its payload
  have hz := body_zero_offsets
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon a4.view f3 _ (body_store_covers _)).trans ?_
  refine (View.canon_unit_zero (S := S320x32) hz inb_S320x32_S320x32_0_0 _).trans ?_
  rw [body_readAt_whole a1 hz inb_S320x12000_S320x12000_0_0 f0, body_readAt_whole a2 hz inb_S12000x32_S12000x32_0_0 f1,
    body_readAt_whole a3 hz inb_S1x32_S1x32_0_0 f2]

/-! ## An entry of the payload reads the `adj` block through one row -/

/-- The matmul's dimension numbers: the left operand's columns against the right operand's rows. -/
abbrev bodyDot := dot_S320x12000_S12000x32_S320x32_1_0_0_1_n_n

/-- The left operand's index at result entry `j` has `j`'s row, whatever the contraction position. -/
theorem lhsIdx_row (j : S320x32.Idx) (k : bodyDot.contr.Idx) : (bodyDot.lhsIdx j k 0 : ℕ) = j 0 := by
  simp [DotDims.lhsIdx, bodyDot, dot_S320x12000_S12000x32_S320x32_1_0_0_1_n_n]; rfl

/-- Entry `(p, q)` of the product contracts row `p` of the left operand: two left operands with the same row `p`
    give the same entry. -/
theorem matmul_row (L L' : FVec Ideal S320x12000 .bf16) (R : FVec Ideal S12000x32 .bf16) (acc : FVec Ideal S320x32 .f32)
    (p : Fin 320) (q : Fin 32) (h : ∀ k : Fin 12000, L (ix2 p k) = L' (ix2 p k)) :
    matmul bodyDot none L R acc (ix2 p q) = matmul bodyDot none L' R acc (ix2 p q) := by
  refine (Ideal.matmul_apply bodyDot none L R acc (ix2 p q)).trans (Eq.trans ?_ (Ideal.matmul_apply bodyDot none L' R acc (ix2 p q)).symm)
  refine congrArg (acc (ix2 p q) + ·) (Finset.sum_congr rfl fun k _ => ?_)
  have e : bodyDot.lhsIdx (ix2 p q) k = ix2 p (bodyDot.lhsIdx (ix2 p q) k 1 : Fin 12000) :=
    (eq_ix2 (n0 := 320) (n1 := 12000) (bodyDot.lhsIdx (ix2 p q) k)).trans
      (congrArg (fun r : Fin 320 => ix2 r (bodyDot.lhsIdx (ix2 p q) k 1 : Fin 12000)) (Fin.ext (lhsIdx_row (ix2 p q) k)))
  exact congrArg (· * R (bodyDot.rhsIdx (ix2 p q) k)) ((congrArg L e).trans ((h _).trans (congrArg L' e).symm))

/-- The same of the whole payload: the bias and the clamp are entry by entry, so entry `(p, q)` of the stored block
    reads the `adj` block through its row `p` only. -/
theorem k0_pay1_row (X X' : Vec Ideal S320x12000 .f32) (S : Vec Ideal S12000x32 .f32) (B : Vec Ideal S1x32 .f32)
    (p : Fin 320) (q : Fin 32) (h : ∀ k : Fin 12000, X (ix2 p k) = X' (ix2 p k)) :
    k0_pay1 (F := Ideal) X S B (ix2 p q) = k0_pay1 (F := Ideal) X' S B (ix2 p q) := by
  unfold k0_pay1
  refine (maximumf_apply _ _ _).trans (Eq.trans ?_ (maximumf_apply _ _ _).symm)
  refine congrArg (max · _) ?_
  refine (addf_apply _ _ _).trans (Eq.trans ?_ (addf_apply _ _ _).symm)
  refine congrArg (· + _) ?_
  exact matmul_row _ _ _ _ p q fun k => h k

/-! ## What the body finds in each staging buffer -/

/-- `support`'s window has one block, the whole array: read through it, the array. -/
theorem blockOf_sup (c : Dev nD) (t : Fin cfg0.N) : (dats m 0 c).blockOf (1 : Fin 4) t = supArr m c := by
  funext y
  show V m c main_v6 ((win0_1.blk t).view.emb y) = V m c main_v6 y
  refine congrArg (V m c main_v6) (funext fun a => Fin.ext ?_)
  show win0_1.index t a * win0_1.size a + 1 * (y a).val = (y a).val
  have h0 : win0_1.index t a = 0 := by match a with | ⟨0, _⟩ => rfl | ⟨1, _⟩ => rfl
  rw [h0]; omega

/-- The bias row's window likewise. -/
theorem blockOf_bias (c : Dev nD) (t : Fin cfg0.N) : (dats m 0 c).blockOf (2 : Fin 4) t = biasRow m c := by
  funext y
  show V m c main_v7 ((win0_2.blk t).view.emb y) = V m c main_v7 y
  refine congrArg (V m c main_v7) (funext fun a => Fin.ext ?_)
  show win0_2.index t a * win0_2.size a + 1 * (y a).val = (y a).val
  have h0 : win0_2.index t a = 0 := by match a with | ⟨0, _⟩ => rfl | ⟨1, _⟩ => rfl
  rw [h0]; omega

/-- `adj`'s buffer, fetched at every point: the block's rows inside the array, and past them what the buffer held. -/
theorem before_adj (c : Dev nD) (t : Fin cfg0.N) (d) :
    (dats m 0 c).before (0 : Fin 4) t d = win0_0.fill (grid0.coords t) d (ablk m c t) := by
  rw [(dats m 0 c).before_fetched 0 t (fetch0_0 t) d]; rfl

/-- `support`'s buffer holds `support` at every point: fetched at the first, left in place by the body since. -/
theorem before_sup (c : Dev nD) (t : Fin cfg0.N) (d) : (dats m 0 c).before (1 : Fin 4) t d = supArr m c := by
  refine ((dats m 0 c).before_in_eq_fetched 1 rfl (fun _ => rfl) (fun _ _ _ => rfl) (fun t' => ?_) t d).trans ?_
  · exact (blockOf_sup m c t').symm
  · exact blockOf_sup m c t

/-- The bias row's buffer likewise. -/
theorem before_bias (c : Dev nD) (t : Fin cfg0.N) (d) : (dats m 0 c).before (2 : Fin 4) t d = biasRow m c := by
  refine ((dats m 0 c).before_in_eq_fetched 2 rfl (fun _ => rfl) (fun _ _ _ => rfl) (fun t' => ?_) t d).trans ?_
  · exact (blockOf_bias m c t').symm
  · exact blockOf_bias m c t

/-- The result's window is written back at every point: the body finds its buffer at contents nothing names. -/
theorem before_out (c : Dev nD) (t : Fin cfg0.N) (d) : (dats m 0 c).before (3 : Fin 4) t d = d :=
  (dats m 0 c).before_out_reset 3 rfl t
    (if h : t.val = 0 then .inl h else .inr ⟨h, flush0_3 _⟩) d

/-! ## The stored block on the rows inside the array -/

/-- The payload at an entry, with the entry's row made explicit. -/
theorem k0_pay1_congr_row (X X' : Vec Ideal S320x12000 .f32) (S : Vec Ideal S12000x32 .f32) (B : Vec Ideal S1x32 .f32)
    (y : S320x32.Idx) (h : ∀ k : Fin 12000, X (ix2 (y 0 : Fin 320) k) = X' (ix2 (y 0 : Fin 320) k)) :
    k0_pay1 (F := Ideal) X S B y = k0_pay1 (F := Ideal) X' S B y := by
  obtain ⟨p, q, rfl⟩ : ∃ (p : Fin 320) (q : Fin 32), y = ix2 p q := ⟨y 0, y 1, eq_ix2 y⟩
  exact k0_pay1_row X X' S B p q h

/-- The two clipped windows cut the same rows at every point, and `adj`'s window cuts no column. -/
theorem body_cut_rows : ∀ t : Fin cfg0.N, win0_3.xsize (grid0.coords t) 0 = win0_0.xsize (grid0.coords t) 0
    ∧ win0_0.xsize (grid0.coords t) 1 = 12000 :=
  (by decide +kernel : ∀ t : Fin grid0.N, win0_3.xsize (grid0.coords t) 0 = win0_0.xsize (grid0.coords t) 0
    ∧ win0_0.xsize (grid0.coords t) 1 = 12000)

/-- On a row inside the array a filled `adj` block is the block, whatever filled it out. -/
theorem body_fill_row (t : Fin cfg0.N) (d d' : S320x12000.Idx → Elt Ideal .f32)
    (g : (win0_0.xblock (grid0.coords t)).Idx → Elt Ideal .f32) (p : Fin 320) (hp : p.val < win0_0.xsize (grid0.coords t) 0)
    (k : Fin 12000) : win0_0.fill (grid0.coords t) d g (ix2 p k) = win0_0.fill (grid0.coords t) d' g (ix2 p k) := by
  have hm : win0_0.moved (grid0.coords t) (ix2 p k) = true := (win0_0.moved_iff _ _).mpr fun a => by
    match a with
    | ⟨0, _⟩ => exact hp
    | ⟨1, _⟩ => exact lt_of_lt_of_eq k.isLt (body_cut_rows t).2.symm
  unfold Window.fill; rw [dif_pos hm, dif_pos hm]

/-- So the stored block's rows inside the array do not depend on what the `adj` buffer held past the array's end:
    row `p` of the payload reads row `p` of the `adj` block, and the result's window keeps the rows `adj`'s does. -/
theorem cut_stored (c : Dev nD) (t : Fin cfg0.N) (d : S320x12000.Idx → Elt Ideal .f32) :
    win0_3.cut (grid0.coords t) (k0_pay1 (F := Ideal) (win0_0.fill (grid0.coords t) d (ablk m c t)) (supArr m c) (biasRow m c))
      = win0_3.cut (grid0.coords t) (outBlk m c t) := by
  funext j
  show k0_pay1 (F := Ideal) (win0_0.fill (grid0.coords t) d (ablk m c t)) (supArr m c) (biasRow m c) (win0_3.xinj (grid0.coords t) j)
    = k0_pay1 (F := Ideal) (ablkFull m c t) (supArr m c) (biasRow m c) (win0_3.xinj (grid0.coords t) j)
  refine k0_pay1_congr_row _ _ _ _ _ fun k => ?_
  exact body_fill_row t _ _ _ _ (lt_of_lt_of_eq (j 0).isLt (body_cut_rows t).1) k

/-! ## The obligation -/

/-- The library's body obligation for the proof data `dats`, at every point, every window stated as `cfg0.loose` has it. -/
theorem body_obligation (c : Dev nD) :
    BodyObligationLoose (dats (F := Ideal) m 0 c) (defs₀ (F := Ideal)) Variants.none () Set.univ := fun t => by
  rw [bigSep_W0, bigSep_W0]
  -- no point is idle; windows 0 and 3 are stated on the rows inside the array, windows 1 and 2 exactly; the invariant
  -- and what is owed pass through unread
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_adj m c t d0, before_sup m c t d1, before_bias m c t d2, before_out m c t d3]
  iapply (sound_body c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (ablk m c t)) (supArr m c) (biasRow m c) d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  -- `adj`'s buffer is as found: on the rows inside the array, the block; `support`'s and the bias row's are as found;
  -- the result's buffer holds the payload of the block as found, whose rows inside the array are `outBlk`'s
  have hx : (win0 0).cut (grid0.coords t) ((dats m 0 c).after 0 t) = ablk m c t :=
    (congrArg (win0_0.cut (grid0.coords t)) (dats_after0 m c t)).trans (win0_0.cut_fill _ _ _)
  have hy : (win0 3).fill (grid0.coords t)
        (k0_pay1 (F := Ideal) (win0_0.fill (grid0.coords t) d0 (ablk m c t)) (supArr m c) (biasRow m c))
        ((win0 3).cut (grid0.coords t) ((dats m 0 c).after 3 t))
      = k0_pay1 (F := Ideal) (win0_0.fill (grid0.coords t) d0 (ablk m c t)) (supArr m c) (biasRow m c) :=
    (congrArg (fun Z => win0_3.fill (grid0.coords t)
        (k0_pay1 (F := Ideal) (win0_0.fill (grid0.coords t) d0 (ablk m c t)) (supArr m c) (biasRow m c))
        (win0_3.cut (grid0.coords t) Z)) (dats_after3 m c t)).trans
      (win0_3.fill_congr_cut (grid0.coords t) (cut_stored m c t d0))
  isplitl [H0]
  · iexists d0; rw [hx]; iexact H0
  isplitl [H1]
  · rw [dats_after1 m c t]; iexact H1
  isplitl [H2]
  · rw [dats_after2 m c t]; iexact H2
  · iexists k0_pay1 (F := Ideal) (win0_0.fill (grid0.coords t) d0 (ablk m c t)) (supArr m c) (biasRow m c)
    rw [hy]; iexact H3

end Cert.KernelIdeal.Hand

end
-- ==== Proof.KI.Run.lean ====
/-
  The kernel program's run: at the compiled mesh, from any memory with zero counters, every weakly fair execution of
  @main terminates; the result array `main_v8` ends at what the write-backs of the thirty-eight points leave
  (`Dat.arrAt`), and the six arguments end as launched. The frame claim is that statement with the result dropped.
-/
import proofs.«171706_j781684048056_1_alg».proof.Proof.KI.Body
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The frame run: every array of the pipeline at what the library computes from the proof data, every other unscoped
    buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := dats_A m) (hΦ := fun _ _ => rfl)

/-- The run read at the result and at the arguments: `adj` is an input window's array (never written), the other five
    are staged by no window and written by no host operation. -/
theorem run_result : θ_run defs (onTc (τ := τ) (main (F := Ideal))) ⟨m, fun _ => 0, ρ⟩ (fun r => ∀ c : Dev nD,
      r.2.mem ((c.tc : Thread nD τ).loc main_v8) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 3,
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).1 0).trans (((dats m 0 c).arrAt_in 0 rfl _).trans ((dats_A m c 0).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩)
    (run_main m ρ)

/-- The frame: the program runs and its arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Hand

end
-- ==== Proof.Support.lean ====
/-
  The layer's `support` array as ONE function of the four arrays it is computed from, with no program in sight.

  `t` is a one-element array; the treatment column it selects is column `clamp(int(49 · t), 0, 49)` of `tr`
  (`int` the conversion to a signed 32-bit integer; a negative index is counted from the end of the fifty
  columns, and the slice's start is clamped into the array once more by the slice itself). That column,
  one entry per node, is appended to the node features `z` as a thirty-third column, and the `12000 × 33` array
  is multiplied by the weights `W` (`33 × 32`): row `r`, column `q` of the result is the sum over the 33 columns
  `k` of `[z | column] (r, k) · W (k, q)`.

  The integer operations, the float-to-integer conversion, the slice at a computed start and the matrix product
  are kept as the applications they are: nothing below evaluates them. Every side condition is a proposition,
  so two instances of `supp` at the same arrays are the same term whatever proofs they were given.
-/
import Idealize.ShloMosaic.PureOps

noncomputable section

namespace Cert.Gcn

open Idealize.ShloMosaic

/-- The one-element array that holds `t`. -/
abbrev ShT : Shape := ⟨1, ![1]⟩
/-- A scalar. -/
abbrev Sh0 : Shape := ⟨0, ![]⟩
/-- The node features, and the product. -/
abbrev ShZ : Shape := ⟨2, ![12000, 32]⟩
/-- The treatments: fifty columns per node. -/
abbrev ShTr : Shape := ⟨3, ![12000, 50, 1]⟩
/-- The weights. -/
abbrev ShW : Shape := ⟨2, ![33, 32]⟩
/-- One treatment column as sliced, and as a matrix column. -/
abbrev ShCol3 : Shape := ⟨3, ![12000, 1, 1]⟩
abbrev ShCol : Shape := ⟨2, ![12000, 1]⟩
/-- The features with the column appended. -/
abbrev ShZc : Shape := ⟨2, ![12000, 33]⟩

/-- `support = [z | tr[:, clamp(int(49 t), 0, 49), :]] · W`. -/
def supp {F : FTy → Type} [FloatOps F]
    (h1 : ShT.ShapeCasts Sh0) (h2 : ShTr.Slices (fun _ => 0) ShCol3) (h3 : 0 < Sh0.numel)
    (h4 : ShCol3.ShapeCasts ShCol) (h5 : Shape.Concatenates [ShZ, ShCol] ShZc 1)
    (h6 : DotDims.WF ShZc ShW ShZ [1] [0] [0] [1] [] [])
    (t : FVec F ShT .f32) (z : FVec F ShZ .f32) (tr : FVec F ShTr .f32) (W : FVec F ShW .f32) : FVec F ShZ .f32 :=
  -- the time as a scalar, scaled by 49 (the word `0x42440000`) and converted to a signed integer
  let v0 : FVec F Sh0 .f32 := fun i => shapeCast Sh0 t h1 i
  let v1 : FVec F Sh0 .f32 := mulf v0 (constant Sh0 .f32 0x42440000#32)
  let v2 : IVec Sh0 32 := fptosi 32 v1
  -- clamped to `[0, 49]`: first from below, then from above
  let lo : IVec Sh0 32 := constantI Sh0 32 0#32
  let hi : IVec Sh0 32 := constantI Sh0 32 49#32
  let v3 : IVec Sh0 32 := minsi (id hi) (maxsi (id lo) v2)
  -- a negative index counts from the end of the fifty columns
  let neg : IVec Sh0 1 := cmpi .slt v3 (constantI Sh0 32 0#32)
  let plus : IVec Sh0 32 := addi v3 (constantI Sh0 32 50#32)
  let idx : IVec Sh0 32 := select neg plus v3
  -- the slice starts at row 0, column `idx`, depth 0
  let c1 : IVec Sh0 32 := constantI Sh0 32 0#32
  let c2 : IVec Sh0 32 := constantI Sh0 32 0#32
  let sl : FVec F ShCol3 .f32 :=
    Host.dynamicSlice ShCol3 tr (fun k => ((![c1, idx, c2] : Fin 3 → IVec Sh0 32) k (Shape.Idx.first h3)).toInt) h2
  let v4 : FVec F ShCol .f32 := fun i => shapeCast ShCol sl h4 i
  -- appended to `z` along the columns, then the product over the 33 columns
  let v5 : FVec F ShZc .f32 := concatenate ShZc 1 [⟨ShZ, z⟩, ⟨ShCol, v4⟩] h5
  Host.dotGeneral
    ({ lhsContracting := [1], rhsContracting := [0], lhsNonContracting := [0], rhsNonContracting := [1],
       lhsBatch := [], rhsBatch := [], wf := h6 } : DotDims ShZc ShW ShZ) none v5 W

end Cert.Gcn

end
-- ==== Proof.KI.Support.lean ====
/-
  What the two arrays the region reads besides `adj` hold when it is entered, as functions of the launch memory:
  `main_v6` is the layer's `support` (`Cert.Gcn.supp` of the arguments `t`, `z`, the treatments and `W`), and
  `main_v7` is the bias laid out as one row of 32.
-/
import proofs.«171706_j781684048056_1_alg».proof.Proof.KI.Host
import proofs.«171706_j781684048056_1_alg».proof.Proof.Support

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The bias row: the 32 entries of the bias, in order, as a `1 × 32` array. Only the last of the twenty-two
    operations writes it, and it reads an argument. -/
theorem V_main_v7 (m : (ℓ : Loc nD τ sig) → Buf (Elt F) ℓ) (c : Dev nD) :
    V m c main_v7 = fun i => shapeCast S1x32 (m ((c.tc : Thread nD τ).loc main_arg5)) shapeCasts_S32_S1x32 i := by
  dsimp only [V]
  simp only [hostOps0, hostOps0_1, hostOps0_2, hostOps0_3, List.flatten_cons, List.flatten_nil, List.append_nil, List.cons_append,
    List.nil_append]
  after_results
  rfl

/-- A family of three index operands read off a valuation is the three readings, entry by entry. -/
theorem idx3_read {T : BufTy} (i0 i1 i2 : StableHlo.TRef sig T) (G : Valuation τ sig (Elt F)) :
    (fun k : Fin 3 => cast (congrArg (fun U : BufTy => U.Contents (Elt F)) (![i0, i1, i2] k).ty_eq)
        (G (Proc.devRef .tc (![i0, i1, i2] k).ref)))
      = ![i0.ofBuf (G (Proc.devRef .tc i0.ref)), i1.ofBuf (G (Proc.devRef .tc i1.ref)), i2.ofBuf (G (Proc.devRef .tc i2.ref))] := by
  funext k; fin_cases k <;> rfl

set_option maxHeartbeats 1600000 in
/-- `support`: the last-but-one of the twenty-two operations writes it, from `z` with the selected treatment column
    appended and `W`; the column's index is computed from `t` by the operations before. -/
theorem V_main_v6 (m : (ℓ : Loc nD τ sig) → Buf (Elt F) ℓ) (c : Dev nD) :
    V m c main_v6 = Cert.Gcn.supp shapeCasts_S1_S_ sliceFits_S12000x50x1_S12000x1x1 h_S_ shapeCasts_S12000x1x1_S12000x1
      concatenates_S12000x32_S12000x1_S12000x33_d1 dot_S12000x33_S33x32_S12000x32_1_0_0_1_n_n_wf
      (m ((c.tc : Thread nD τ).loc main_arg0)) (m ((c.tc : Thread nD τ).loc main_arg1))
      (m ((c.tc : Thread nD τ).loc main_arg3)) (m ((c.tc : Thread nD τ).loc main_arg4)) := by
  dsimp only [V]
  simp only [hostOps0, hostOps0_1, hostOps0_2, hostOps0_3, List.flatten_cons, List.flatten_nil, List.append_nil, List.cons_append,
    List.nil_append]
  after_results
  rw [idx3_read]
  after_results
  rfl

end Cert.KernelIdeal.Hand

end
-- ==== Proof.Spec.lean ====
/-
  The one function both programs compute, index by index over the extended reals: a graph-convolution layer
  `relu(adj · support + b)`. Row `r`, column `q` of the result is
  `max (∑ₖ adj[r,k] · support[k,q] + b[q]) 0`, the sum over all 12000 columns of `adj`'s row.
  Nothing here mentions a program: both value legs are stated against `gcnOut`.
-/
import Idealize.ShloMosaic.PureOps.Ideal
import Idealize.ShloMosaic.Lib.ValueIdx

noncomputable section

namespace Cert.Gcn

open Idealize.ShloMosaic Idealize.ShloMosaic.ValueIdx

abbrev SA : Shape := ⟨2, ![12000, 12000]⟩
abbrev SS : Shape := ⟨2, ![12000, 32]⟩
abbrev SB : Shape := ⟨1, ![32]⟩

/-- Entry `(r, q)` of the layer's output: the row of `adj` against the column of `support`, plus the bias, clamped
    below at the zero word's value. -/
def gcnAt (A : FVec Ideal SA .f32) (Sup : FVec Ideal SS .f32) (b : FVec Ideal SB .f32) (r : Fin 12000) (q : Fin 32) : EReal :=
  max ((∑ k : Fin 12000, A (ix2 r k) * Sup (ix2 k q)) + b (ix1 q)) (Ideal.ofBits .f32 0x00000000#32)

/-- The layer's output as one whole-array function of `adj`, `support` and the bias. -/
def gcnOut (A : FVec Ideal SA .f32) (Sup : FVec Ideal SS .f32) (b : FVec Ideal SB .f32) : FVec Ideal SS .f32 :=
  fun i => gcnAt A Sup b (i 0) (i 1)

theorem gcnOut_apply (A : FVec Ideal SA .f32) (Sup : FVec Ideal SS .f32) (b : FVec Ideal SB .f32) (r : Fin 12000) (q : Fin 32) :
    gcnOut A Sup b (ix2 r q) = gcnAt A Sup b r q := rfl

end Cert.Gcn

end
-- ==== Proof.KI.Value.lean ====
/-
  The kernel's value at the ideal instance: the result array after the run is the layer's output `gcnOut` of `adj`,
  the host-computed `support` and the bias.

  Point `t` of the grid stages rows `320·t … 320·t + 319` of `adj` (the last point only the 160 rows inside the array),
  the whole of `support` and the bias row, and stores `max (X · support + bias) 0` of the staged block `X`. Entry `(p, q)`
  of what it stores is row `p` of `X` against column `q` of `support` — a sum over all 12000 columns in which no other
  row of `X` enters — plus the bias entry `q`, clamped below at zero. Row `p` of `X`, for `p` among the rows the transfer
  moves, is row `320·t + p` of `adj`; so that entry is entry `(320·t + p, q)` of `gcnOut`. The write-back moves exactly
  those rows, so nothing is ever asked of the rows by which the last block overhangs the array; and the thirty-eight
  blocks' rows, `320·t ≤ r < min (320·t + 320) 12000`, are together all 12000 rows. No law of arithmetic is used: the
  two sides are the same sum of the same products.
-/
import proofs.«171706_j781684048056_1_alg».proof.Proof.KI.Data
import proofs.«171706_j781684048056_1_alg».proof.Proof.KI.Support
import proofs.«171706_j781684048056_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What the body stores, at an index

The block product contracts the columns of the left block with the rows of the right one. At result index `(p, q)` and
contraction position `k` the left operand is read at `(p, k)` and the right at `(k, q)`: one lemma per operand axis. -/

/-- The left operand's row is the result's row; -/
theorem lhs_mm_0 (i : S320x32.Idx) (q : dot_S320x12000_S12000x32_S320x32_1_0_0_1_n_n.contr.Idx) :
    (dot_S320x12000_S12000x32_S320x32_1_0_0_1_n_n.lhsIdx i q 0).val = (i 0).val := by
  unfold DotDims.lhsIdx
  rw [dif_neg (show ¬(0 : Fin S320x12000.rank) ∈ dot_S320x12000_S12000x32_S320x32_1_0_0_1_n_n.lhsBatch by decide), dif_pos (show (0 : Fin S320x12000.rank) ∈ dot_S320x12000_S12000x32_S320x32_1_0_0_1_n_n.lhsNonContracting by decide)]
  rfl
/-- its column is the contraction position; -/
theorem lhs_mm_1 (i : S320x32.Idx) (q : dot_S320x12000_S12000x32_S320x32_1_0_0_1_n_n.contr.Idx) :
    (dot_S320x12000_S12000x32_S320x32_1_0_0_1_n_n.lhsIdx i q 1).val = (q ⟨0, by decide⟩).val :=
  dot_S320x12000_S12000x32_S320x32_1_0_0_1_n_n.lhsIdx_val_of_single rfl i q
/-- the right operand's row is the contraction position; -/
theorem rhs_mm_0 (i : S320x32.Idx) (q : dot_S320x12000_S12000x32_S320x32_1_0_0_1_n_n.contr.Idx) :
    (dot_S320x12000_S12000x32_S320x32_1_0_0_1_n_n.rhsIdx i q 0).val = (q ⟨0, by decide⟩).val :=
  dot_S320x12000_S12000x32_S320x32_1_0_0_1_n_n.rhsIdx_val_of_single rfl i q
/-- its column is the result's column. -/
theorem rhs_mm_1 (i : S320x32.Idx) (q : dot_S320x12000_S12000x32_S320x32_1_0_0_1_n_n.contr.Idx) :
    (dot_S320x12000_S12000x32_S320x32_1_0_0_1_n_n.rhsIdx i q 1).val = (i 1).val := by
  unfold DotDims.rhsIdx
  rw [dif_neg (show ¬(1 : Fin S12000x32.rank) ∈ dot_S320x12000_S12000x32_S320x32_1_0_0_1_n_n.rhsBatch by decide), dif_pos (show (1 : Fin S12000x32.rank) ∈ dot_S320x12000_S12000x32_S320x32_1_0_0_1_n_n.rhsNonContracting by decide)]
  rfl

/-- The block product into the zero accumulator, at row `p` and column `q`: row `p` of the left block against column `q`
    of the right one, the sum re-indexed from the one-axis contraction index to the column number. -/
theorem mm_apply (X : FVec Ideal S320x12000 .bf16) (S : FVec Ideal S12000x32 .bf16) (p : Fin 320) (q : Fin 32) :
    matmul dot_S320x12000_S12000x32_S320x32_1_0_0_1_n_n none X S (constant S320x32 .f32 0x00000000#32) (ix2 p q)
      = ∑ k : Fin 12000, X (ix2 p k) * S (ix2 k q) := by
  show FloatOps.matmul dot_S320x12000_S12000x32_S320x32_1_0_0_1_n_n none X S (constant S320x32 .f32 0x00000000#32) (ix2 p q) = _
  rw [Ideal.matmul_constant_zero_apply, ← Equiv.sum_comp (contrEquiv1 dot_S320x12000_S12000x32_S320x32_1_0_0_1_n_n 12000 rfl rfl).symm]
  refine Finset.sum_congr rfl fun k _ => ?_
  have hk := contrEquiv1_symm_val dot_S320x12000_S12000x32_S320x32_1_0_0_1_n_n 12000 rfl rfl k
  have el : dot_S320x12000_S12000x32_S320x32_1_0_0_1_n_n.lhsIdx (ix2 p q) ((contrEquiv1 dot_S320x12000_S12000x32_S320x32_1_0_0_1_n_n 12000 rfl rfl).symm k) = ix2 p k := funext fun a => Fin.ext (by
    match a with
    | ⟨0, _⟩ => exact lhs_mm_0 _ _
    | ⟨1, _⟩ => exact (lhs_mm_1 _ _).trans hk)
  have er : dot_S320x12000_S12000x32_S320x32_1_0_0_1_n_n.rhsIdx (ix2 p q) ((contrEquiv1 dot_S320x12000_S12000x32_S320x32_1_0_0_1_n_n 12000 rfl rfl).symm k) = ix2 k q := funext fun a => Fin.ext (by
    match a with
    | ⟨0, _⟩ => exact (rhs_mm_0 _ _).trans hk
    | ⟨1, _⟩ => exact rhs_mm_1 _ _)
  rw [el, er]

/-- The bias row laid along every row of the block, at `(p, q)`: the row's entry `q`. -/
theorem bias_apply (B : Vec Ideal S1x32 .f32) (p : Fin 320) (q : Fin 32) :
    broadcastTo S320x32 (shapeCast S1x32 B shapeCasts_S1x32_S1x32) broadcasts_S1x32_S320x32 (ix2 p q) = B (ix2 0 q) := by
  rw [shapeCast_self]
  refine broadcastTo_apply B broadcasts_S1x32_S320x32 (ix2 p q) (ix2 0 q) ?_
  intro a
  match a with
  | ⟨0, _⟩ => rfl
  | ⟨1, _⟩ => rfl

/-- What the body stores, at row `p` and column `q` of the block: row `p` of the staged rows of `adj` against column `q`
    of `support`, plus the bias entry `q`, clamped below at the zero word's value (a change of float format is the
    identity on extended reals). -/
theorem pay_apply (X : Vec Ideal S320x12000 .f32) (S : Vec Ideal S12000x32 .f32) (B : Vec Ideal S1x32 .f32) (p : Fin 320) (q : Fin 32) :
    k0_pay1 X S B (ix2 p q)
      = max ((∑ k : Fin 12000, X (ix2 p k) * S (ix2 k q)) + B (ix2 0 q)) (Ideal.ofBits .f32 0x00000000#32) := by
  unfold k0_pay1
  rw [maximumf_apply, addf_apply, broadcast_apply, mm_apply, bias_apply, shapeCast_self]
  rfl

variable (m : (ℓ : Loc nD τ sig) → Buf (Elt Ideal) ℓ)

/-! ## The blocks of `adj` and of the result -/

/-- The index maps and the cuts, decided once over the thirty-eight points: point `t` is block row `t` of both `adj` and
    the result, over every column; both are cut to the same rows, which end where the block or the array ends. -/
theorem grid_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_0.xsize (grid0.coords t) (0 : Fin 2) = win0_3.xsize (grid0.coords t) (0 : Fin 2)
    ∧ win0_0.xsize (grid0.coords t) (1 : Fin 2) = 12000
    ∧ win0_3.xsize (grid0.coords t) (1 : Fin 2) = 32
    ∧ 320 * t.val + win0_3.xsize (grid0.coords t) (0 : Fin 2) = min (320 * t.val + 320) 12000 :=
  (by decide +kernel : ∀ t : Fin grid0.N, _)

/-- A filled block at a position the transfer moves is the moved part there. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Window.fill
  rw [dif_pos ((w.moved_iff i j).mpr h)]

/-- `adj`'s staged block at a row the transfer moves, `p` rows into point `t`'s block: row `320·t + p` of `adj` (an
    element of a block sits at block index × block size + its coordinate). -/
theorem ablkFull_apply (c : Dev nD) (t : Fin cfg0.N) (p : Fin 320) (k : Fin 12000)
    (hp : p.val < win0_3.xsize (grid0.coords t) (0 : Fin 2)) (hr : 320 * t.val + p.val < 12000) :
    ablkFull m c t (ix2 p k) = adjArr m c (ix2 ⟨320 * t.val + p.val, hr⟩ k) := by
  obtain ⟨e0, e1, -, -, ex, ey, -, -⟩ := grid_facts t
  unfold ablkFull
  rw [fill_of_lt win0_0 (grid0.coords t) _ _ (ix2 p k) (fun a => by
    match a with
    | ⟨0, _⟩ => show p.val < win0_0.xsize (grid0.coords t) (0 : Fin 2); rw [ex]; exact hp
    | ⟨1, _⟩ => show k.val < win0_0.xsize (grid0.coords t) (1 : Fin 2); rw [ey]; exact k.isLt)]
  unfold ablk
  show adjArr m c ((win0_0.blk t).view.emb _) = _
  refine congrArg (adjArr m c) (funext fun a => Fin.ext ?_)
  match a with
  | ⟨0, _⟩ => show win0_0.index t (0 : Fin 2) * 320 + 1 * p.val = 320 * t.val + p.val; rw [e0]; omega
  | ⟨1, _⟩ => show win0_0.index t (1 : Fin 2) * 12000 + 1 * k.val = k.val; rw [e1]; omega

/-- A block of the body's result, cut to the rows the write-back moves, is that block of the layer's output: row `p` of
    point `t`'s block is row `320·t + p` of the array, the staged rows of `adj` being the array's rows there (`hX`) and
    the staged bias row the bias (`hB`). Stated over any staged contents with those two properties, and any `support`. -/
theorem cut_pay_eq (t : Fin cfg0.N) (X : Vec Ideal S320x12000 .f32) (A : Vec Ideal S12000x12000 .f32)
    (S : Vec Ideal S12000x32 .f32) (B : Vec Ideal S1x32 .f32) (b : FVec Ideal Cert.Gcn.SB .f32)
    (hX : ∀ (p : Fin 320) (k : Fin 12000) (hp : p.val < win0_3.xsize (grid0.coords t) (0 : Fin 2)) (hr : 320 * t.val + p.val < 12000),
      X (ix2 p k) = A (ix2 ⟨320 * t.val + p.val, hr⟩ k))
    (hB : ∀ q : Fin 32, B (ix2 0 q) = b (ix1 q)) :
    win0_3.cut (grid0.coords t) (k0_pay1 X S B) = (win0_3.blk t).view.read (Elt Ideal) (Cert.Gcn.gcnOut A S b) := by
  obtain ⟨-, -, e0, e1, -, -, ey, ez⟩ := grid_facts t
  funext x
  have hx0 : (x 0).val < win0_3.xsize (grid0.coords t) (0 : Fin 2) := (x 0).isLt
  have hx1 : (x 1).val < win0_3.xsize (grid0.coords t) (1 : Fin 2) := (x 1).isLt
  rw [ey] at hx1
  have hp : (x 0).val < 320 := by omega
  have hr : 320 * t.val + (x 0).val < 12000 := by omega
  have hj : win0_3.xinj (grid0.coords t) x = ix2 (⟨(x 0).val, hp⟩ : Fin 320) (⟨(x 1).val, hx1⟩ : Fin 32) := by
    funext a
    match a with
    | ⟨0, _⟩ => rfl
    | ⟨1, _⟩ => rfl
  have hi : (win0_3.blk t).view.emb x = ix2 (⟨320 * t.val + (x 0).val, hr⟩ : Fin 12000) (⟨(x 1).val, hx1⟩ : Fin 32) := by
    funext a; apply Fin.ext
    match a with
    | ⟨0, _⟩ => show win0_3.index t (0 : Fin 2) * 320 + 1 * (x 0).val = 320 * t.val + (x 0).val; rw [e0]; omega
    | ⟨1, _⟩ => show win0_3.index t (1 : Fin 2) * 32 + 1 * (x 1).val = (x 1).val; rw [e1]; omega
  show k0_pay1 X S B (win0_3.xinj (grid0.coords t) x) = Cert.Gcn.gcnOut A S b ((win0_3.blk t).view.emb x)
  refine ((congrArg (k0_pay1 X S B) hj).trans (pay_apply X S B _ _)).trans
    (Eq.symm ((congrArg (Cert.Gcn.gcnOut A S b) hi).trans ?_))
  rw [Cert.Gcn.gcnOut_apply]
  unfold Cert.Gcn.gcnAt
  rw [hB]
  refine congrArg (fun s => max (s + b (ix1 _)) _) (Finset.sum_congr rfl fun k _ => ?_)
  rw [hX _ k hx0 hr]

/-! ## From the blocks to the array -/

/-- An index of the result array is in point `t`'s block iff its row is among the block's rows inside the array and its
    column among the block's columns. -/
theorem mem_blk (t : Fin cfg0.N) (i : S12000x32.Idx) :
    i ∈ (win0_3.blk t).view.set ↔ ∀ a : Fin 2, win0_3.index t a * S320x32.size a ≤ (i a).val
      ∧ (i a).val < win0_3.index t a * S320x32.size a + win0_3.xsize (grid0.coords t) a := by
  show i ∈ ((View.whole main_v8).slice (win0_3.rect t)).set ↔ _
  rw [View.set_slice_whole, Rect.mem_set_unit]
  exact Iff.rfl

/-- Row `r` of the result lies in the block of point `r / 320`, whose rows are `320·(r / 320)` up to the block's or the
    array's end; every point writes its block back. -/
theorem cover (i : S12000x32.Idx) : ∃ t : Fin cfg0.N, (cfg0.win 3).flush t = true ∧ i ∈ ((cfg0.win 3).blk t).view.set := by
  have h0 : (i 0).val < 12000 := (i 0).isLt
  have h1 : (i 1).val < 32 := (i 1).isLt
  have hN : cfg0.N = 38 := N_0
  let t : Fin cfg0.N := ⟨(i 0).val / 320, by rw [hN]; omega⟩
  refine ⟨t, flush0_3 t, ?_⟩
  obtain ⟨-, -, e0, e1, -, -, ey, ez⟩ := grid_facts t
  have ht : t.val = (i 0).val / 320 := rfl
  show i ∈ (win0_3.blk t).view.set
  rw [mem_blk]
  intro a
  match a with
  | ⟨0, _⟩ =>
    show win0_3.index t (0 : Fin 2) * 320 ≤ (i 0).val ∧ (i 0).val < win0_3.index t (0 : Fin 2) * 320 + win0_3.xsize (grid0.coords t) (0 : Fin 2)
    rw [e0]; omega
  | ⟨1, _⟩ =>
    show win0_3.index t (1 : Fin 2) * 32 ≤ (i 1).val ∧ (i 1).val < win0_3.index t (1 : Fin 2) * 32 + win0_3.xsize (grid0.coords t) (1 : Fin 2)
    rw [e1, ey]; omega

/-- The staged bias row at column `q` is the bias's entry `q`: a `1 × 32` array is the 32 entries in order. -/
theorem biasRow_apply (c : Dev nD) (q : Fin 32) :
    biasRow m c (ix2 0 q) = m ((c.tc : Thread nD τ).loc main_arg5) (ix1 q) := by
  show V m c main_v7 (ix2 0 q) = _
  rw [V_main_v7]
  refine shapeCast_apply (s := S32) (t := S1x32) (m ((c.tc : Thread nD τ).loc main_arg5)) shapeCasts_S32_S1x32 (ix2 (0 : Fin 1) q) (ix1 q) ?_
  rw [Shape.rowMajor_val_two, Shape.rowMajor_val_one]
  show q.val = 0 * 32 + q.val
  omega

/-- After the thirty-eight write-backs the result array holds `relu(adj · support + b)`, `support` the array the host
    prefix left in `main_v6`: every point writes back its block of that one function, and the blocks cover the array. -/
theorem final_v8 (c : Dev nD) :
    (dats (F := Ideal) m 0 c).arrAt 3 cfg0.N
      = Cert.Gcn.gcnOut (m ((c.tc : Thread nD τ).loc main_arg2)) (V m c main_v6) (m ((c.tc : Thread nD τ).loc main_arg5)) := by
  have hA : adjArr m c = m ((c.tc : Thread nD τ).loc main_arg2) := V_main_arg2 m c
  refine (dats (F := Ideal) m 0 c).arrAt_eq_of_cover 3 _ (fun t _ => ?_) cover
  show win0_3.cut (grid0.coords t) ((dats (F := Ideal) m 0 c).after 3 t) = _
  rw [dats_after3]
  unfold outBlk
  exact cut_pay_eq t (ablkFull m c t) (m ((c.tc : Thread nD τ).loc main_arg2)) (supArr m c) (biasRow m c)
    (m ((c.tc : Thread nD τ).loc main_arg5))
    (fun p k hp hr => (ablkFull_apply m c t p k hp hr).trans (congrFun hA _)) (biasRow_apply m c)

end Cert.KernelIdeal.Hand

end
-- ==== Proof.RI.Ops.lean ====
/-
  The reference's @main as the list of its twenty-eight host operations, the three functions it calls (`clip`,
  `dynamic_index_in_dim`, `relu`) written out at their call sites over each call's buffers.
-/
import proofs.«171706_j781684048056_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ reshape main_arg0 main_v0 rfl shapeCasts_S1_S_,
    nullary main_cst (constant S_ .f32 0x42440000#32),
    binary main_v0 main_cst main_v1 (mulf : (⟨S_, .f32⟩ : BufTy).Contents (Elt F) → (⟨S_, .f32⟩ : BufTy).Contents (Elt F) → (⟨S_, .f32⟩ : BufTy).Contents (Elt F)),
    unary main_v1 main_v2 (fptosi 32 : (⟨S_, .f32⟩ : BufTy).Contents (Elt F) → (⟨S_, .i32⟩ : BufTy).Contents (Elt F)),
    nullary main_c (constantI S_ 32 0#32),
    nullary main_c_0 (constantI S_ 32 49#32),
    TRef.unary (.of main_c : TRef sig ⟨S_, .i32⟩) main_call0.v0 id,
    TRef.binary main_call0.v0 (.of main_v2 : TRef sig ⟨S_, .i32⟩) main_call0.v1 maxsi,
    TRef.unary (.of main_c_0 : TRef sig ⟨S_, .i32⟩) main_call0.v2 id,
    TRef.binary main_call0.v2 main_call0.v1 main_call0.v3 minsi,
    TRef.nullary main_call1.c (constantI S_ 32 0#32),
    TRef.binary (.of main_v3 : TRef sig ⟨S_, .i32⟩) main_call1.c main_call1.v0 (cmpi .slt),
    TRef.nullary main_call1.c_0 (constantI S_ 32 50#32),
    TRef.binary (.of main_v3 : TRef sig ⟨S_, .i32⟩) main_call1.c_0 main_call1.v1 addi,
    TRef.ternary main_call1.v0 main_call1.v1 (.of main_v3 : TRef sig ⟨S_, .i32⟩) main_call1.v2 select,
    TRef.nullary main_call1.c_1 (constantI S_ 32 0#32),
    TRef.nullary main_call1.c_2 (constantI S_ 32 0#32),
    TRef.unaryIndexed (.of main_arg3 : TRef sig ⟨S12000x50x1, .f32⟩) ![main_call1.c_1, main_call1.v2, main_call1.c_2] main_call1.v3 (fun x i => Host.dynamicSlice S12000x1x1 x (fun k => (i k (Shape.Idx.first h_S_)).toInt) sliceFits_S12000x50x1_S12000x1x1),
    TRef.reshape main_call1.v3 main_call1.v4 rfl shapeCasts_S12000x1x1_S12000x1,
    binary main_arg1 main_v4 main_v5 ((fun a b => concatenate S12000x33 1 [⟨S12000x32, a⟩, ⟨S12000x1, b⟩] concatenates_S12000x32_S12000x1_S12000x33_d1) : (⟨S12000x32, .f32⟩ : BufTy).Contents (Elt F) → (⟨S12000x1, .f32⟩ : BufTy).Contents (Elt F) → (⟨S12000x33, .f32⟩ : BufTy).Contents (Elt F)),
    binary main_v5 main_arg4 main_v6 ((fun l r => Host.dotGeneral dot_S12000x33_S33x32_S12000x32_1_0_0_1_n_n none l r) : (⟨S12000x33, .f32⟩ : BufTy).Contents (Elt F) → (⟨S33x32, .f32⟩ : BufTy).Contents (Elt F) → (⟨S12000x32, .f32⟩ : BufTy).Contents (Elt F)),
    binary main_arg2 main_v6 main_v7 ((fun l r => Host.dotGeneral dot_S12000x12000_S12000x32_S12000x32_1_0_0_1_n_n none l r) : (⟨S12000x12000, .f32⟩ : BufTy).Contents (Elt F) → (⟨S12000x32, .f32⟩ : BufTy).Contents (Elt F) → (⟨S12000x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S12000x32 ![0, 1] bcast_S1x32_S12000x32_0_1 : (⟨S1x32, .f32⟩ : BufTy).Contents (Elt F) → (⟨S12000x32, .f32⟩ : BufTy).Contents (Elt F)),
    binary main_v7 main_v9 main_v10 (addf : (⟨S12000x32, .f32⟩ : BufTy).Contents (Elt F) → (⟨S12000x32, .f32⟩ : BufTy).Contents (Elt F) → (⟨S12000x32, .f32⟩ : BufTy).Contents (Elt F)),
    TRef.nullary main_call2.cst (constant S_ .f32 0x00000000#32),
    TRef.unary main_call2.cst main_call2.v0 (broadcastInDim S12000x32 ![] bcast_S_S12000x32),
    TRef.binary (.of main_v10 : TRef sig ⟨S12000x32, .f32⟩) main_call2.v0 main_call2.v1 maximumf ]

set_option maxRecDepth 1024 in
/-- @main is that straight line: the three functions' bodies unfolded at their calls, sequencing reassociated. -/
theorem main_eq (c : Dev nD) : main (F := F) c = seq ops := by
  simp only [main, fn_clip.body, fn_dynamic_index_in_dim.body, fn_relu.body, seq, bind_assoc, pure_bind]

end Cert.ReferenceIdeal.Hand

end
-- ==== Proof.RI.Run.lean ====
/-
  The reference's run and its frame.
  The reference's @main is host operations only: twenty-eight of them in one straight line, no region. Run from any
  memory with zero counters it terminates, and every TensorCore buffer ends at the fold of the operations' results
  over what the launch dealt it. Each operation writes its one result buffer and none of those is an argument, so the
  six arguments end as they were launched.
-/
import proofs.«171706_j781684048056_1_alg».proof.Proof.RI.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The signature scopes nothing, and every operation stays on the TensorCore's references -/

theorem scopedRefs_eq : (Finset.univ.filter fun b : Ref sig .tc => b.isScoped) = ∅ := by decide
theorem scopedSems_eq : (Finset.univ.filter fun sm : SemLoc sig => sm.isScoped .tc) = ∅ := by decide

/-- Each of the twenty-eight operations touches TensorCore references only: operands and result are literal
    references (a typed reference is the plain one underneath). -/
theorem ops_sub : (ops : List (HloOp τ sig (Elt F))).Forall fun op => op.bufs ⊆ tcRefs τ sig :=
  ⟨reshape_bufs_sub .., nullary_bufs_sub .., binary_bufs_sub .., unary_bufs_sub .., nullary_bufs_sub .., nullary_bufs_sub ..,
    unary_bufs_sub .., binary_bufs_sub .., unary_bufs_sub .., binary_bufs_sub ..,
    nullary_bufs_sub .., binary_bufs_sub .., nullary_bufs_sub .., binary_bufs_sub .., ternary_bufs_sub .., nullary_bufs_sub ..,
    nullary_bufs_sub .., unaryIndexed_bufs_sub .., reshape_bufs_sub ..,
    binary_bufs_sub .., binary_bufs_sub .., binary_bufs_sub .., unary_bufs_sub .., unary_bufs_sub .., binary_bufs_sub ..,
    nullary_bufs_sub .., unary_bufs_sub .., binary_bufs_sub ..⟩

/-! ## The run -/

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## No operation writes an argument -/

/-- A reference that is none of the twenty-eight result buffers holds after the line what it held before it: each
    operation writes exactly its result buffer, and the list below is those, in order. -/
theorem after_of_not_written (V : Valuation τ sig (Elt F)) (r : Ref sig .tc)
    (hr : r ∉ ([main_v0, main_cst, main_v1, main_v2, main_c, main_c_0, main_call0_v0, main_call0_v1, main_call0_v2, main_v3,
      main_call1_c, main_call1_v0, main_call1_c_0, main_call1_v1, main_call1_v2, main_call1_c_1, main_call1_c_2, main_call1_v3,
      main_v4, main_v5, main_v6, main_v7, main_v8, main_v9, main_v10, main_call2_cst, main_call2_v0, main_v11] : List (Ref sig .tc))) :
    after ops V (r : DevRef τ sig) = V (r : DevRef τ sig) :=
  after_of_writes_sub (τ := τ) _ _ (by
    simp only [ops, List.Forall]
    repeat' apply And.intro
    all_goals
      intro b hb
      simp only [List.map_cons, List.map_nil, List.toFinset_cons, List.toFinset_nil, Finset.mem_insert]
      simp only [nullary_writes, unary_writes, binary_writes, ternary_writes, reshape_writes, unaryIndexed_writes,
        Finset.mem_singleton] at hb
      subst hb
      simp) hr

theorem arg0_eq (V : Valuation τ sig (Elt F)) : after ops V (main_arg0 : DevRef τ sig) = V (main_arg0 : DevRef τ sig) :=
  after_of_not_written V _ (by decide)
theorem arg1_eq (V : Valuation τ sig (Elt F)) : after ops V (main_arg1 : DevRef τ sig) = V (main_arg1 : DevRef τ sig) :=
  after_of_not_written V _ (by decide)
theorem arg2_eq (V : Valuation τ sig (Elt F)) : after ops V (main_arg2 : DevRef τ sig) = V (main_arg2 : DevRef τ sig) :=
  after_of_not_written V _ (by decide)
theorem arg3_eq (V : Valuation τ sig (Elt F)) : after ops V (main_arg3 : DevRef τ sig) = V (main_arg3 : DevRef τ sig) :=
  after_of_not_written V _ (by decide)
theorem arg4_eq (V : Valuation τ sig (Elt F)) : after ops V (main_arg4 : DevRef τ sig) = V (main_arg4 : DevRef τ sig) :=
  after_of_not_written V _ (by decide)
theorem arg5_eq (V : Valuation τ sig (Elt F)) : after ops V (main_arg5 : DevRef τ sig) = V (main_arg5 : DevRef τ sig) :=
  after_of_not_written V _ (by decide)

/-! ## The frame -/

/-- @main runs (terminates, nothing faulting) and its six argument arrays end unchanged: the run's final contents read
    at each argument, where the fold is the launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_arg0).trans (arg0_eq (launchContents m c)), (h c main_arg1).trans (arg1_eq (launchContents m c)),
        (h c main_arg2).trans (arg2_eq (launchContents m c)), (h c main_arg3).trans (arg3_eq (launchContents m c)),
        (h c main_arg4).trans (arg4_eq (launchContents m c)), (h c main_arg5).trans (arg5_eq (launchContents m c))⟩)
    (run_main m ρ)

end Cert.ReferenceIdeal.Hand

end
-- ==== Proof.RI.Value.lean ====
/-
  The reference's result is the layer's output. Its last seven operations compute, from adj, the support the first
  twenty-one left and the bias: the product adj · support; the bias as one row, that row under every one of the 12000
  rows, the sum of the two; a zero splat, and the entrywise maximum with it. Read at row r and column q that is
  max (∑ₖ adj[r,k] · support[k,q] + b[q]) 0. The first twenty-one operations are never opened: none of them writes adj
  or the bias, and none of the last seven writes the support.
-/
import proofs.«171706_j781684048056_1_alg».proof.Proof.RI.Ops
import proofs.«171706_j781684048056_1_alg».proof.Proof.Spec
import Idealize.ShloMosaic.Lib.StableHlo.Run
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The layer read at an index -/

/-- The bias made a one-row matrix and that row repeated under every row: entry (r, q) is b[q], whatever r. -/
theorem bias_rows (b : FVec Ideal S32 .f32) (r : Fin 12000) (q : Fin 32) :
    broadcastInDim S12000x32 ![0, 1] bcast_S1x32_S12000x32_0_1 (broadcastInDim S1x32 ![1] bcast_S32_S1x32_1 b) (ix2 r q) = b (ix1 q) := by
  rw [broadcastInDim_apply _ _ _ (ix2 r q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- The zero splat reads the zero word's value at every entry. -/
theorem zero_splat (r : Fin 12000) (q : Fin 32) :
    broadcastInDim S12000x32 ![] bcast_S_S12000x32 (constant (F := Ideal) S_ .f32 0x00000000#32) (ix2 r q) = Ideal.ofBits .f32 0x00000000#32 := rfl

/-- The product's dimension numbers are the plain ones of a 12000×12000 by 12000×32 product: the left operand contracted on
    its columns, the right on its rows, no batch axis. -/
theorem dot_eq_plain : (dot_S12000x12000_S12000x32_S12000x32_1_0_0_1_n_n : DotDims S12000x12000 S12000x32 S12000x32) = DotDims.plain 12000 12000 32 := rfl

/-- Entry (r, q) of adj · support is row r of adj against column q of support. -/
theorem adj_support (A : FVec Ideal S12000x12000 .f32) (Sup : FVec Ideal S12000x32 .f32) (r : Fin 12000) (q : Fin 32) :
    Host.dotGeneral (F := Ideal) dot_S12000x12000_S12000x32_S12000x32_1_0_0_1_n_n none A Sup (ix2 r q)
      = ∑ k : Fin 12000, A (ix2 r k) * Sup (ix2 k q) := by
  rw [dot_eq_plain]
  exact StackMember.dotGeneral_plain_apply none A Sup r q

/-- The seven operations' term is the layer's output: entry by entry the maximum, the sum, the repeated bias, the zero
    splat and the product read at (r, q). -/
theorem layer_eq (A : FVec Ideal S12000x12000 .f32) (Sup : FVec Ideal S12000x32 .f32) (b : FVec Ideal S32 .f32) :
    maximumf (addf (Host.dotGeneral (F := Ideal) dot_S12000x12000_S12000x32_S12000x32_1_0_0_1_n_n none A Sup)
        (broadcastInDim S12000x32 ![0, 1] bcast_S1x32_S12000x32_0_1 (broadcastInDim S1x32 ![1] bcast_S32_S1x32_1 b)))
      (broadcastInDim S12000x32 ![] bcast_S_S12000x32 (constant (F := Ideal) S_ .f32 0x00000000#32))
      = Cert.Gcn.gcnOut A Sup b := by
  funext i
  obtain ⟨r, q, rfl⟩ : ∃ (r : Fin 12000) (q : Fin 32), i = ix2 r q := ⟨i 0, i 1, eq_ix2 i⟩
  rw [Cert.Gcn.gcnOut_apply, maximumf_apply, addf_apply, bias_rows, zero_splat, adj_support]
  rfl

/-! ## @main cut after the support -/

section Line
variable {F : FTy → Type} [FloatOps F]

/-- The last seven operations: the product with adj, the bias row, the row under every row, the sum, the zero, its
    splat, the maximum. -/
abbrev opsTail : List (HloOp τ sig (Elt F)) :=
  [ binary main_arg2 main_v6 main_v7 ((fun l r => Host.dotGeneral dot_S12000x12000_S12000x32_S12000x32_1_0_0_1_n_n none l r) : (⟨S12000x12000, .f32⟩ : BufTy).Contents (Elt F) → (⟨S12000x32, .f32⟩ : BufTy).Contents (Elt F) → (⟨S12000x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S12000x32 ![0, 1] bcast_S1x32_S12000x32_0_1 : (⟨S1x32, .f32⟩ : BufTy).Contents (Elt F) → (⟨S12000x32, .f32⟩ : BufTy).Contents (Elt F)),
    binary main_v7 main_v9 main_v10 (addf : (⟨S12000x32, .f32⟩ : BufTy).Contents (Elt F) → (⟨S12000x32, .f32⟩ : BufTy).Contents (Elt F) → (⟨S12000x32, .f32⟩ : BufTy).Contents (Elt F)),
    TRef.nullary main_call2.cst (constant S_ .f32 0x00000000#32),
    TRef.unary main_call2.cst main_call2.v0 (broadcastInDim S12000x32 ![] bcast_S_S12000x32),
    TRef.binary (.of main_v10 : TRef sig ⟨S12000x32, .f32⟩) main_call2.v0 main_call2.v1 maximumf ]

/-- The first twenty-one operations, which end with the support; kept closed. -/
def opsHead : List (HloOp τ sig (Elt F)) := (ops (F := F)).take 21

/-- @main's twenty-eight operations are the first twenty-one, then the last seven. -/
theorem ops_split : (ops (F := F)) = opsHead ++ opsTail := rfl

/-- So what the buffers hold after @main is the last seven operations' fold over what the first twenty-one left. -/
theorem after_ops (V : Valuation τ sig (Elt F)) : after (ops (F := F)) V = after opsTail (after opsHead V) :=
  (congrArg (fun l => after l V) ops_split).trans (StableHlo.after_append _ _ V)

/-- Every reference some operation of @main writes: each operation's own result, no argument among them. -/
abbrev written : List (Ref sig .tc) :=
  [main_v0, main_cst, main_v1, main_v2, main_c, main_c_0, main_call0_v0, main_call0_v1, main_call0_v2, main_v3,
    main_call1_c, main_call1_v0, main_call1_c_0, main_call1_v1, main_call1_v2, main_call1_c_1, main_call1_c_2, main_call1_v3,
    main_v4, main_v5, main_v6, main_v7, main_v8, main_v9, main_v10, main_call2_cst, main_call2_v0, main_v11]

/-- The references the last seven operations write: the support is not among them. -/
abbrev writtenTail : List (Ref sig .tc) :=
  [main_v7, main_v8, main_v9, main_v10, main_call2_cst, main_call2_v0, main_v11]

theorem ops_writes : (ops (F := F)).Forall fun op => op.writes ⊆ (written.map (Proc.devRef (τ := τ) .tc)).toFinset := by
  simp only [List.Forall]
  repeat' apply And.intro
  all_goals
    intro b hb
    simp only [List.map_cons, List.map_nil, List.toFinset_cons, List.toFinset_nil, Finset.mem_insert]
    simp only [StableHlo.nullary_writes, StableHlo.unary_writes, StableHlo.binary_writes, StableHlo.ternary_writes,
      StableHlo.reshape_writes, StableHlo.unaryIndexed_writes, Finset.mem_singleton] at hb
    subst hb
    simp

theorem tail_writes : (opsTail (F := F)).Forall fun op => op.writes ⊆ (writtenTail.map (Proc.devRef (τ := τ) .tc)).toFinset := by
  simp only [List.Forall]
  repeat' apply And.intro
  all_goals
    intro b hb
    simp only [List.map_cons, List.map_nil, List.toFinset_cons, List.toFinset_nil, Finset.mem_insert]
    simp only [StableHlo.nullary_writes, StableHlo.unary_writes, StableHlo.binary_writes, Finset.mem_singleton] at hb
    subst hb
    simp

/-- A reference no operation of @main writes holds after the first twenty-one what it held before them. -/
theorem head_keeps (V : Valuation τ sig (Elt F)) {r : Ref sig .tc} (hr : r ∉ written) :
    after (opsHead (F := F)) V (Proc.devRef .tc r) = V (Proc.devRef .tc r) :=
  after_of_writes_sub (τ := τ) opsHead V
    (List.forall_iff_forall_mem.mpr fun op hop => List.forall_iff_forall_mem.mp ops_writes op (List.mem_of_mem_take hop)) hr

/-- A reference none of the last seven writes holds after them what it held before them. -/
theorem tail_keeps (W : Valuation τ sig (Elt F)) {r : Ref sig .tc} (hr : r ∉ writtenTail) :
    after (opsTail (F := F)) W (Proc.devRef .tc r) = W (Proc.devRef .tc r) :=
  after_of_writes_sub (τ := τ) opsTail W tail_writes hr

end Line

/-- The result buffer after the last seven operations, as one term over the three buffers they read: adj, the support,
    the bias. -/
theorem tail_term (W : Valuation τ sig (Elt Ideal)) :
    after (opsTail (F := Ideal)) W (main_v11 : DevRef τ sig)
      = maximumf (addf (Host.dotGeneral (F := Ideal) (φ₁ := .f32) (φ₂ := .f32) dot_S12000x12000_S12000x32_S12000x32_1_0_0_1_n_n none (W (main_arg2 : DevRef τ sig)) (W (main_v6 : DevRef τ sig)))
          (broadcastInDim S12000x32 ![0, 1] bcast_S1x32_S12000x32_0_1 (broadcastInDim S1x32 ![1] bcast_S32_S1x32_1 (W (main_arg5 : DevRef τ sig)))))
        (broadcastInDim S12000x32 ![] bcast_S_S12000x32 (constant (F := Ideal) S_ .f32 0x00000000#32)) := by
  after_results
  rfl

/-! ## The reference's result -/

/-- What @main leaves in its result buffer is the layer's output of adj, the support @main itself computed, and the
    bias: the first twenty-one operations leave adj and the bias as they found them, the last seven leave the support
    as they found it, and their own term is the layer read entry by entry. -/
theorem out_eq (V : Valuation τ sig (Elt Ideal)) :
    after (ops (F := Ideal)) V (main_v11 : DevRef τ sig)
      = Cert.Gcn.gcnOut (V (main_arg2 : DevRef τ sig)) (after (ops (F := Ideal)) V (main_v6 : DevRef τ sig)) (V (main_arg5 : DevRef τ sig)) := by
  have h2 : after (opsHead (F := Ideal)) V (main_arg2 : DevRef τ sig) = V (main_arg2 : DevRef τ sig) := head_keeps V (by decide)
  have h5 : after (opsHead (F := Ideal)) V (main_arg5 : DevRef τ sig) = V (main_arg5 : DevRef τ sig) := head_keeps V (by decide)
  have h6 : after (ops (F := Ideal)) V (main_v6 : DevRef τ sig) = after (opsHead (F := Ideal)) V (main_v6 : DevRef τ sig) := by
    rw [after_ops]
    exact tail_keeps _ (by decide)
  rw [h6, ← h2, ← h5, after_ops]
  exact (tail_term _).trans (layer_eq _ _ _)

end Cert.ReferenceIdeal.Hand

end
-- ==== Proof.RI.Support.lean ====
/-
  The reference's `support`: what `main_v6` holds after the reference's twenty-eight operations is
  `Cert.Gcn.supp` of the arguments `t`, `z`, the treatments and `W` — the same function the kernel's program
  computes before its region. The seven operations after the one that writes `main_v6` do not write it.
-/
import proofs.«171706_j781684048056_1_alg».proof.Proof.RI.Ops
import proofs.«171706_j781684048056_1_alg».proof.Proof.Support

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A family of three index operands read off a valuation is the three readings, entry by entry. -/
theorem idx3_read {T : BufTy} (i0 i1 i2 : TRef sig T) (G : Valuation τ sig (Elt F)) :
    (fun k : Fin 3 => cast (congrArg (fun U : BufTy => U.Contents (Elt F)) (![i0, i1, i2] k).ty_eq)
        (G (Proc.devRef .tc (![i0, i1, i2] k).ref)))
      = ![i0.ofBuf (G (Proc.devRef .tc i0.ref)), i1.ofBuf (G (Proc.devRef .tc i1.ref)), i2.ofBuf (G (Proc.devRef .tc i2.ref))] := by
  funext k; fin_cases k <;> rfl

set_option maxHeartbeats 1600000 in
/-- `support` on the reference's side: `z` with the selected treatment column appended, times `W`; the column's
    index is computed from `t` by the operations before. -/
theorem v6_eq (V : Valuation τ sig (Elt F)) :
    after ops V (main_v6 : DevRef τ sig) = Cert.Gcn.supp shapeCasts_S1_S_ sliceFits_S12000x50x1_S12000x1x1 h_S_
      shapeCasts_S12000x1x1_S12000x1 concatenates_S12000x32_S12000x1_S12000x33_d1
      dot_S12000x33_S33x32_S12000x32_1_0_0_1_n_n_wf
      (V (main_arg0 : DevRef τ sig)) (V (main_arg1 : DevRef τ sig)) (V (main_arg3 : DevRef τ sig))
      (V (main_arg4 : DevRef τ sig)) := by
  dsimp only [ops]
  after_results
  rw [idx3_read]
  after_results
  rfl

end Cert.ReferenceIdeal.Hand

end
-- ==== Proof.lean ====
/-
  The certificate of one graph-convolution layer, `relu(adj · support + b)`, computed by a row-tiled kernel against its
  plain reference.

  Both programs first compute `support` on the host by the same operations (the treatment column selected by `t`,
  appended to `z`, times `W`); it is carried as one function `supp` of the arguments and never opened. The kernel then
  walks `adj` in thirty-eight blocks of 320 rows (the last block holds 160 rows of the array; what its staging buffer
  holds past them reaches only result rows that are never written back), multiplying each block by the whole of
  `support`, adding the bias row and clamping at zero; the reference does one whole product. Over the extended reals
  entry `(r, q)` of either result is `max (∑ₖ adj[r,k] · support[k,q] + b[q]) 0`: the kernel's blocks are restrictions
  of that one function (`final_v8`), and the reference's term reads as it index by index (`out_eq`). No law beyond
  reading both matrix products as the same finite sum is used, so the precondition is never opened.

  The three frames: the idealized kernel's is its run with the result dropped; the word-level kernel's is proved
  with proof data that says nothing of the result's contents; the reference's is its straight-line run.
  No rewrite was applied when the kernel was idealized, so `preserves` is `True`.
-/
import proofs.«171706_j781684048056_1_alg».proof.Defs
import proofs.«171706_j781684048056_1_alg».proof.Proof.Gen.Kernel
import proofs.«171706_j781684048056_1_alg».proof.Proof.Gen.KernelIdeal
import proofs.«171706_j781684048056_1_alg».proof.Proof.Gen.ReferenceIdeal
import proofs.«171706_j781684048056_1_alg».proof.Proof.Gen.Pre_finite_inputs
import proofs.«171706_j781684048056_1_alg».proof.Proof.K.Frame
import proofs.«171706_j781684048056_1_alg».proof.Proof.KI.Run
import proofs.«171706_j781684048056_1_alg».proof.Proof.KI.Value
import proofs.«171706_j781684048056_1_alg».proof.Proof.KI.Support
import proofs.«171706_j781684048056_1_alg».proof.Proof.RI.Run
import proofs.«171706_j781684048056_1_alg».proof.Proof.RI.Value
import proofs.«171706_j781684048056_1_alg».proof.Proof.RI.Support
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ => Cert.ReferenceIdeal.Hand.frame (F := Ideal) m ρ

theorem preserves : Cert.preserves_Kernel_KernelIdeal := trivial

/-- Both idealized programs end with the layer's output of the (agreeing) arguments in their result arrays. -/
theorem algebraic : Cert.algebraic_KernelIdeal_ReferenceIdeal := by
  intro m ρ m' ρ' _ hagree
  refine ⟨fun c => Cert.Gcn.gcnOut (m ((c.tc : Thread Cert.KernelIdeal.nD Cert.KernelIdeal.τ).loc Cert.KernelIdeal.main_arg2))
      (Cert.Gcn.supp (F := Ideal) Cert.KernelIdeal.Gen.shapeCasts_S1_S_ Cert.KernelIdeal.Gen.sliceFits_S12000x50x1_S12000x1x1 Cert.KernelIdeal.Gen.h_S_
        Cert.KernelIdeal.Gen.shapeCasts_S12000x1x1_S12000x1 Cert.KernelIdeal.Gen.concatenates_S12000x32_S12000x1_S12000x33_d1
        Cert.KernelIdeal.Gen.dot_S12000x33_S33x32_S12000x32_1_0_0_1_n_n_wf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)), ?_, ?_⟩
  · refine (θ_run Cert.KernelIdeal.defs _ _).mono (fun r h c => ⟨?_, (h c).2⟩) (Cert.KernelIdeal.Hand.run_result m ρ)
    rw [(h c).1, Cert.KernelIdeal.Hand.final_v8, Cert.KernelIdeal.Hand.V_main_v6]
  · refine (θ_run Cert.ReferenceIdeal.defs _ _).mono (fun r h c => ⟨?_, ?_⟩) (Cert.ReferenceIdeal.Hand.run_main (F := Ideal) m' ρ')
    · rw [h c Cert.ReferenceIdeal.main_v11, Cert.ReferenceIdeal.Hand.out_eq, Cert.ReferenceIdeal.Hand.v6_eq]
      obtain ⟨h0, h1, h2, h3, h4, h5⟩ := hagree c
      exact congr (congr (congrArg Cert.Gcn.gcnOut h2)
        (congr (congr (congr (congrArg (Cert.Gcn.supp (F := Ideal) _ _ _ _ _ _) h0) h1) h3) h4)) h5
    · exact ⟨(h c _).trans (Cert.ReferenceIdeal.Hand.arg0_eq _), (h c _).trans (Cert.ReferenceIdeal.Hand.arg1_eq _),
        (h c _).trans (Cert.ReferenceIdeal.Hand.arg2_eq _), (h c _).trans (Cert.ReferenceIdeal.Hand.arg3_eq _),
        (h c _).trans (Cert.ReferenceIdeal.Hand.arg4_eq _), (h c _).trans (Cert.ReferenceIdeal.Hand.arg5_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
